-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S64x1 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x1 .f32 := Host.absf main_arg23
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg20 : FVec F S128 .f32) (main_arg21 : FVec F S128x64 .f32) (main_arg22 : FVec F S64 .f32) (main_arg23 : FVec F S64x1 .f32) (main_arg24 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x64 .f32) (main_arg1 : IVec S2x600000 32) (main_arg2 : IVec S100000 32) (main_arg3 : FVec F S64x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S5000x64 : Shape := ⟨2, ![5000, 64]⟩
abbrev S5000x128 : Shape := ⟨2, ![5000, 128]⟩
abbrev S700000x128 : Shape := ⟨2, ![700000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 169
  | .vmem => 44
  | .smem => 0
  | _ => 0

abbrev hbmTy0_0 (i : Nat) : BufTy := match i % 128 with
  | 0 => ⟨S100000x64, .f32⟩
  | 1 => ⟨S2x600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x1, .f32⟩
  | 24 => ⟨S1, .f32⟩
  | 25 => ⟨S100000, .i32⟩
  | 26 => ⟨S1x600000, .i32⟩
  | 27 => ⟨S600000, .i32⟩
  | 28 => ⟨S700000, .i32⟩
  | 29 => ⟨S1x600000, .i32⟩
  | 30 => ⟨S600000, .i32⟩
  | 31 => ⟨S700000, .i32⟩
  | 32 => ⟨S_, .f32⟩
  | 33 => ⟨S700000, .f32⟩
  | 34 => ⟨S_, .f32⟩
  | 35 => ⟨S100000, .f32⟩
  | 36 => ⟨S700000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S700000, .f32⟩
  | 67 => ⟨S700000, .f32⟩
  | 68 => ⟨S700000x1, .f32⟩
  | 69 => ⟨S100000x128, .f32⟩
  | 70 => ⟨S_, .i32⟩
  | 71 => ⟨S700000, .i32⟩
  | 72 => ⟨S700000, .i1⟩
  | 73 => ⟨S_, .i32⟩
  | 74 => ⟨S700000, .i32⟩
  | 75 => ⟨S700000, .i32⟩
  | 76 => ⟨S700000, .i32⟩
  | 77 => ⟨S700000x1, .i32⟩
  | 78 => ⟨S700000x128, .f32⟩
  | 79 => ⟨S700000x128, .f32⟩
  | 80 => ⟨S700000x128, .f32⟩
  | 81 => ⟨S_, .f32⟩
  | 82 => ⟨S100000x128, .f32⟩
  | 83 => ⟨S700000x1, .i32⟩
  | 84 => ⟨S100000x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S100000x128, .f32⟩
  | 92 => ⟨S_, .i32⟩
  | 93 => ⟨S700000, .i32⟩
  | 94 => ⟨S700000, .i1⟩
  | 95 => ⟨S_, .i32⟩
  | 96 => ⟨S700000, .i32⟩
  | 97 => ⟨S700000, .i32⟩
  | 98 => ⟨S700000, .i32⟩
  | 99 => ⟨S700000x1, .i32⟩
  | 100 => ⟨S700000x128, .f32⟩
  | 101 => ⟨S700000x128, .f32⟩
  | 102 => ⟨S700000x128, .f32⟩
  | 103 => ⟨S_, .f32⟩
  | 104 => ⟨S100000x128, .f32⟩
  | 105 => ⟨S700000x1, .i32⟩
  | 106 => ⟨S100000x128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S100000x128, .f32⟩
  | 113 => ⟨S100000x128, .f32⟩
  | 114 => ⟨S_, .i32⟩
  | 115 => ⟨S700000, .i32⟩
  | 116 => ⟨S700000, .i1⟩
  | 117 => ⟨S_, .i32⟩
  | 118 => ⟨S700000, .i32⟩
  | 119 => ⟨S700000, .i32⟩
  | 120 => ⟨S700000, .i32⟩
  | 121 => ⟨S700000x1, .i32⟩
  | 122 => ⟨S700000x128, .f32⟩
  | 123 => ⟨S700000x128, .f32⟩
  | 124 => ⟨S700000x128, .f32⟩
  | 125 => ⟨S_, .f32⟩
  | 126 => ⟨S100000x128, .f32⟩
  | 127 => ⟨S700000x1, .i32⟩
  | _ => ⟨S100000x64, .f32⟩

abbrev hbmTy0_1 (i : Nat) : BufTy := match i % 128 with
  | 0 => ⟨S100000x128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S100000x128, .f32⟩
  | 7 => ⟨S_, .f32⟩
  | 8 => ⟨S512x128, .f32⟩
  | 9 => ⟨S100000x1, .i32⟩
  | 10 => ⟨S512x128, .f32⟩
  | 11 => ⟨S_, .f32⟩
  | 12 => ⟨S100000x1, .f32⟩
  | 13 => ⟨S_, .f32⟩
  | 14 => ⟨S512x1, .f32⟩
  | 15 => ⟨S100000x1, .i32⟩
  | 16 => ⟨S512x1, .f32⟩
  | 17 => ⟨S_, .f32⟩
  | 18 => ⟨S512x1, .f32⟩
  | 19 => ⟨S512x1, .f32⟩
  | 20 => ⟨S512x128, .f32⟩
  | 21 => ⟨S512x128, .f32⟩
  | 22 => ⟨S512x64, .f32⟩
  | 23 => ⟨S1x64, .f32⟩
  | 24 => ⟨S512x64, .f32⟩
  | 25 => ⟨S512x64, .f32⟩
  | 26 => ⟨S_, .f32⟩
  | 27 => ⟨S512x64, .f32⟩
  | 28 => ⟨S512x64, .f32⟩
  | 29 => ⟨S512x1, .f32⟩
  | 30 => ⟨S1x1, .f32⟩
  | 31 => ⟨S512x1, .f32⟩
  | 32 => ⟨S512x1, .f32⟩
  | 33 => ⟨S512x1, .f32⟩
  | 34 => ⟨S512x1, .f32⟩
  | 35 => ⟨S_, .f32⟩
  | 36 => ⟨S512x1, .f32⟩
  | 37 => ⟨S512x1, .f32⟩
  | 38 => ⟨S_, .f32⟩
  | 39 => ⟨S512x1, .f32⟩
  | 40 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_c_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_c_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_10 : Ref sig .tc := ⟨.hbm, 92, rfl⟩
abbrev main_v53 : Ref sig .tc := ⟨.hbm, 93, rfl⟩
abbrev main_v54 : Ref sig .tc := ⟨.hbm, 94, rfl⟩
abbrev main_c_11 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_12 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_13 : Ref sig .tc := ⟨.hbm, 114, rfl⟩
abbrev main_v72 : Ref sig .tc := ⟨.hbm, 115, rfl⟩
abbrev main_v73 : Ref sig .tc := ⟨.hbm, 116, rfl⟩
abbrev main_c_14 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_15 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_16 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_17 : Ref sig .tc := ⟨.hbm, 139, rfl⟩
abbrev main_v93 : Ref sig .tc := ⟨.hbm, 140, rfl⟩
abbrev main_cst_18 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_19 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call1_cst : Ref sig .tc := ⟨.hbm, 154, rfl⟩
abbrev main_call1_v0 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_20 : Ref sig .tc := ⟨.hbm, 163, rfl⟩
abbrev main_v112 : Ref sig .tc := ⟨.hbm, 164, rfl⟩
abbrev main_v113 : Ref sig .tc := ⟨.hbm, 165, rfl⟩
abbrev main_cst_21 : Ref sig .tc := ⟨.hbm, 166, rfl⟩
abbrev main_v114 : Ref sig .tc := ⟨.hbm, 167, rfl⟩
abbrev main_v115 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem7_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x64_S64x128_S5000x128_1_0_0_1_n_n_wf : DotDims.WF S5000x64 S64x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S5000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v70) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v89) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x600000 : Shape := ⟨2, ![2, 600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 218
  | .vmem => 0
  | .smem => 0
  | _ => 0

abbrev hbmTy0_0 (i : Nat) : BufTy := match i % 128 with
  | 0 => ⟨S100000x64, .f32⟩
  | 1 => ⟨S2x600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x1, .f32⟩
  | 24 => ⟨S1, .f32⟩
  | 25 => ⟨S100000, .i32⟩
  | 26 => ⟨S1x600000, .i32⟩
  | 27 => ⟨S600000, .i32⟩
  | 28 => ⟨S700000, .i32⟩
  | 29 => ⟨S1x600000, .i32⟩
  | 30 => ⟨S600000, .i32⟩
  | 31 => ⟨S700000, .i32⟩
  | 32 => ⟨S_, .f32⟩
  | 33 => ⟨S700000, .f32⟩
  | 34 => ⟨S_, .f32⟩
  | 35 => ⟨S100000, .f32⟩
  | 36 => ⟨S700000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S700000, .f32⟩
  | 67 => ⟨S700000, .f32⟩
  | 68 => ⟨S700000x1, .f32⟩
  | 69 => ⟨S100000x128, .f32⟩
  | 70 => ⟨S_, .i32⟩
  | 71 => ⟨S700000, .i32⟩
  | 72 => ⟨S700000, .i1⟩
  | 73 => ⟨S_, .i32⟩
  | 74 => ⟨S700000, .i32⟩
  | 75 => ⟨S700000, .i32⟩
  | 76 => ⟨S700000, .i32⟩
  | 77 => ⟨S700000x1, .i32⟩
  | 78 => ⟨S700000x128, .f32⟩
  | 79 => ⟨S700000x128, .f32⟩
  | 80 => ⟨S700000x128, .f32⟩
  | 81 => ⟨S_, .f32⟩
  | 82 => ⟨S100000x128, .f32⟩
  | 83 => ⟨S700000x1, .i32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .i32⟩
  | 109 => ⟨S700000, .i32⟩
  | 110 => ⟨S700000, .i1⟩
  | 111 => ⟨S_, .i32⟩
  | 112 => ⟨S700000, .i32⟩
  | 113 => ⟨S700000, .i32⟩
  | 114 => ⟨S700000, .i32⟩
  | 115 => ⟨S700000x1, .i32⟩
  | 116 => ⟨S700000x128, .f32⟩
  | 117 => ⟨S700000x128, .f32⟩
  | 118 => ⟨S700000x128, .f32⟩
  | 119 => ⟨S_, .f32⟩
  | 120 => ⟨S100000x128, .f32⟩
  | 121 => ⟨S700000x1, .i32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S128, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S100000x128, .f32⟩
  | 19 => ⟨S_, .i32⟩
  | 20 => ⟨S700000, .i32⟩
  | 21 => ⟨S700000, .i1⟩
  | 22 => ⟨S_, .i32⟩
  | 23 => ⟨S700000, .i32⟩
  | 24 => ⟨S700000, .i32⟩
  | 25 => ⟨S700000, .i32⟩
  | 26 => ⟨S700000x1, .i32⟩
  | 27 => ⟨S700000x128, .f32⟩
  | 28 => ⟨S700000x128, .f32⟩
  | 29 => ⟨S700000x128, .f32⟩
  | 30 => ⟨S_, .f32⟩
  | 31 => ⟨S100000x128, .f32⟩
  | 32 => ⟨S700000x1, .i32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S512x128, .f32⟩
  | 58 => ⟨S100000x1, .i32⟩
  | 59 => ⟨S512x128, .f32⟩
  | 60 => ⟨S_, .f32⟩
  | 61 => ⟨S100000x1, .f32⟩
  | 62 => ⟨S_, .f32⟩
  | 63 => ⟨S512x1, .f32⟩
  | 64 => ⟨S100000x1, .i32⟩
  | 65 => ⟨S512x1, .f32⟩
  | 66 => ⟨S_, .f32⟩
  | 67 => ⟨S512x1, .f32⟩
  | 68 => ⟨S512x1, .f32⟩
  | 69 => ⟨S512x128, .f32⟩
  | 70 => ⟨S512x128, .f32⟩
  | 71 => ⟨S512x64, .f32⟩
  | 72 => ⟨S1x64, .f32⟩
  | 73 => ⟨S512x64, .f32⟩
  | 74 => ⟨S512x64, .f32⟩
  | 75 => ⟨S_, .f32⟩
  | 76 => ⟨S512x64, .f32⟩
  | 77 => ⟨S512x64, .f32⟩
  | 78 => ⟨S512x1, .f32⟩
  | 79 => ⟨S1x1, .f32⟩
  | 80 => ⟨S512x1, .f32⟩
  | 81 => ⟨S512x1, .f32⟩
  | 82 => ⟨S512x1, .f32⟩
  | 83 => ⟨S512x1, .f32⟩
  | 84 => ⟨S_, .f32⟩
  | 85 => ⟨S512x1, .f32⟩
  | 86 => ⟨S512x1, .f32⟩
  | 87 => ⟨S_, .f32⟩
  | 88 => ⟨S512x1, .f32⟩
  | 89 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_c_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_c_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call1_cst : Ref sig .tc := ⟨.hbm, 104, rfl⟩
abbrev main_call1_v0 : Ref sig .tc := ⟨.hbm, 105, rfl⟩
abbrev main_v64 : Ref sig .tc := ⟨.hbm, 106, rfl⟩
abbrev main_v65 : Ref sig .tc := ⟨.hbm, 107, rfl⟩
abbrev main_c_11 : Ref sig .tc := ⟨.hbm, 108, rfl⟩
abbrev main_v66 : Ref sig .tc := ⟨.hbm, 109, rfl⟩
abbrev main_v67 : Ref sig .tc := ⟨.hbm, 110, rfl⟩
abbrev main_c_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_14 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_call2_cst : Ref sig .tc := ⟨.hbm, 142, rfl⟩
abbrev main_call2_v0 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_15 : Ref sig .tc := ⟨.hbm, 147, rfl⟩
abbrev main_v99 : Ref sig .tc := ⟨.hbm, 148, rfl⟩
abbrev main_v100 : Ref sig .tc := ⟨.hbm, 149, rfl⟩
abbrev main_c_16 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_17 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_18 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_call3_cst : Ref sig .tc := ⟨.hbm, 181, rfl⟩
abbrev main_call3_v0 : Ref sig .tc := ⟨.hbm, 182, rfl⟩
abbrev main_v129 : Ref sig .tc := ⟨.hbm, 183, rfl⟩
abbrev main_cst_19 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_20 : Ref sig .tc := ⟨.hbm, 188, rfl⟩
abbrev main_v133 : Ref sig .tc := ⟨.hbm, 189, rfl⟩
abbrev main_cst_21 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_22 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_call4_cst : Ref sig .tc := ⟨.hbm, 203, rfl⟩
abbrev main_call4_v0 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_23 : Ref sig .tc := ⟨.hbm, 212, rfl⟩
abbrev main_v152 : Ref sig .tc := ⟨.hbm, 213, rfl⟩
abbrev main_v153 : Ref sig .tc := ⟨.hbm, 214, rfl⟩
abbrev main_cst_24 : Ref sig .tc := ⟨.hbm, 215, rfl⟩
abbrev main_v154 : Ref sig .tc := ⟨.hbm, 216, rfl⟩
abbrev main_v155 : Ref sig .tc := ⟨.hbm, 217, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x64_S64x128_S100000x128_1_0_0_1_n_n_wf : DotDims.WF S100000x64 S64x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.RegionMM0.lean ====
/-
  Region 0: the first feature transform, a [100000,64] by [64,128] matrix product computed in 20 row tiles.
  Grid point t stages rows 5000·t … 5000·t+4999 of the left matrix and the whole right matrix, multiplies them on the
  matrix unit into a zero accumulator (the narrowing of the operands to a shorter float format is the identity on
  exact values), and writes block t of the result. Every entry (a, b) of the result array is therefore the sum over the
  contracted coordinate k of x (a, k) * w (k, b): the tile that holds row a computes exactly that sum, and the twenty
  tiles cover all rows.
-/
import proofs.«173683_j48155173322903_1_alg».proof.Proof.Gen.KernelIdeal.Frame
import proofs.«173683_j48155173322903_1_alg».proof.Proof.LibPlainDot
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r0 : (![0, 0] : Fin 2 → Nat) = fun _ => 0 := funext fun a => by
  match a with
  | ⟨0, _⟩ => rfl
  | ⟨1, _⟩ => rfl

/-- The whole product, entry by entry. -/
def prod_r0 (x : ((⟨S100000x64, .f32⟩ : BufTy).Contents (Elt Ideal))) (w : ((⟨S64x128, .f32⟩ : BufTy).Contents (Elt Ideal))) : ((⟨S100000x128, .f32⟩ : BufTy).Contents (Elt Ideal)) :=
  fun i => ∑ k : Fin 64, x (ix2 ⟨(i 0).val, (i 0).isLt⟩ k) * w (ix2 k ⟨(i 1).val, (i 1).isLt⟩)

/-- One tile's product at an entry of the tile: the sum over the contracted coordinate. -/
theorem tile_r0_at (x0 : Vec Ideal S5000x64 .f32) (x1 : Vec Ideal S64x128 .f32) (p : Fin 5000) (q : Fin 128) :
    k0_pay1 x0 x1 (ix2 p q) = ∑ k : Fin 64, x0 (ix2 p k) * x1 (ix2 k q) := by
  unfold k0_pay1
  exact Cert.LibPlainDot.matmul_zero_apply dot_S5000x64_S64x128_S5000x128_1_0_0_1_n_n rfl none _ _ p q

theorem tile_r0_at' (x0 : Vec Ideal S5000x64 .f32) (x1 : Vec Ideal S64x128 .f32) (j : S5000x128.Idx) :
    k0_pay1 x0 x1 j = ∑ k : Fin 64, x0 (ix2 (j 0) k) * x1 (ix2 k (j 1)) := by
  exact (congrArg (k0_pay1 x0 x1) (eq_ix2 j)).trans (tile_r0_at x0 x1 (j 0) (j 1))

/-- The index maps over the grid: the left operand's tile moves with the result's, the right operand stays. -/
theorem maps_r0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

theorem flushed_r0 (c : Dev nD) (x : ((⟨S100000x64, .f32⟩ : BufTy).Contents (Elt Ideal))) (w : ((⟨S64x128, .f32⟩ : BufTy).Contents (Elt Ideal)))
    (hx : V c main_arg0 = x) (hw : V c main_arg3 = w) (t : Fin cfg0.N) :
    (dat0 V c).flushed 2 t = ((cfg0.win 2).blk t).view.read (Elt Ideal) (prod_r0 x w) := by
  show (cfg0.win 2).cut (grid0.coords t) ((dat0 V c).after 2 t) = _
  rw [after0_2]
  unfold out0_2
  rw [View.canon_unit_zero hz_r0]
  simp only [View.ld_unit_zero (S := S5000x64) hz_r0, View.ld_unit_zero (S := S64x128) hz_r0]
  funext j
  show k0_pay1 (iblk0 V c 0 t) (iblk0 V c 1 t) j = prod_r0 x w (((cfg0.win 2).blk t).view.emb j)
  refine (tile_r0_at' _ _ j).trans ?_
  unfold prod_r0
  obtain ⟨e0, e1, e2, e3, e4, e5⟩ := maps_r0 t
  refine Finset.sum_congr rfl fun k _ => ?_
  have hl : iblk0 V c 0 t (ix2 (j 0) k) = x (ix2 ⟨((((cfg0.win 2).blk t).view.emb j) 0).val, ((((cfg0.win 2).blk t).view.emb j) 0).isLt⟩ k) := by
    show V c main_arg0 (((cfg0.win 0).blk t).view.emb (ix2 (j 0) k)) = _
    rw [hx]
    refine congrArg x (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hr : iblk0 V c 1 t (ix2 k (j 1)) = w (ix2 k ⟨((((cfg0.win 2).blk t).view.emb j) 1).val, ((((cfg0.win 2).blk t).view.emb j) 1).isLt⟩) := by
    show V c main_arg3 (((cfg0.win 1).blk t).view.emb (ix2 k (j 1))) = _
    rw [hw]
    refine congrArg w (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  rw [hl, hr]

/-- An index of the result array is in tile t's block iff each coordinate is in the block's range on its axis. -/
theorem mem_blk_r0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row a lies in tile a / 5000: the twenty tiles cover the array. -/
theorem cover_r0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by omega
  refine ⟨⟨(i 0).val / 5000, ht⟩, flush0_2 _, ?_⟩
  rw [mem_blk_r0]
  obtain ⟨e0, e1, e2, e3, e4, e5⟩ := maps_r0 ⟨(i 0).val / 5000, ht⟩
  have e5' : win0_2.index ⟨(i 0).val / 5000, ht⟩ (0 : Fin 2) = (i 0).val / 5000 := e5
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

theorem region0_out (c : Dev nD) (x : ((⟨S100000x64, .f32⟩ : BufTy).Contents (Elt Ideal))) (w : ((⟨S64x128, .f32⟩ : BufTy).Contents (Elt Ideal)))
    (hx : V c main_arg0 = x) (hw : V c main_arg3 = w) (a : Fin 100000) (b : Fin 128) :
    (dat0 V c).arrAt 2 cfg0.N (ix2 a b) = ∑ k : Fin 64, x (ix2 a k) * w (ix2 k b) := by
  rw [(dat0 V c).arrAt_eq_of_cover 2 (prod_r0 x w) (fun t _ => flushed_r0 V c x w hx hw t) cover_r0]
  rfl

end Cert.KernelIdeal.Chain

end
-- ==== Proof.RegionMM2.lean ====
/-
  Region 2: the second feature transform, a [100000,128] by [128,128] matrix product computed in 20 row tiles.
  Grid point t stages rows 5000·t … 5000·t+4999 of the left matrix and the whole right matrix, multiplies them on the
  matrix unit into a zero accumulator (recasting a tile to its own shape, and the narrowing of the operands to a shorter float format, are the
  identity on exact values), and writes block t of the result. Every entry (a, b) of the result array is therefore the sum over the
  contracted coordinate k of x (a, k) * w (k, b): the tile that holds row a computes exactly that sum, and the twenty
  tiles cover all rows.
-/
import proofs.«173683_j48155173322903_1_alg».proof.Proof.Gen.KernelIdeal.Frame
import proofs.«173683_j48155173322903_1_alg».proof.Proof.LibPlainDot
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r2 : (![0, 0] : Fin 2 → Nat) = fun _ => 0 := funext fun a => by
  match a with
  | ⟨0, _⟩ => rfl
  | ⟨1, _⟩ => rfl

/-- The whole product, entry by entry. -/
def prod_r2 (x : ((⟨S100000x128, .f32⟩ : BufTy).Contents (Elt Ideal))) (w : ((⟨S128x128, .f32⟩ : BufTy).Contents (Elt Ideal))) : ((⟨S100000x128, .f32⟩ : BufTy).Contents (Elt Ideal)) :=
  fun i => ∑ k : Fin 128, x (ix2 ⟨(i 0).val, (i 0).isLt⟩ k) * w (ix2 k ⟨(i 1).val, (i 1).isLt⟩)

/-- One tile's product at an entry of the tile: the sum over the contracted coordinate. -/
theorem tile_r2_at (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact Cert.LibPlainDot.matmul_zero_apply dot_S5000x128_S128x128_S5000x128_1_0_0_1_n_n rfl none _ _ p q

theorem tile_r2_at' (x0 : Vec Ideal S5000x128 .f32) (x1 : Vec Ideal S128x128 .f32) (j : S5000x128.Idx) :
    k2_pay1 x0 x1 j = ∑ k : Fin 128, x0 (ix2 (j 0) k) * x1 (ix2 k (j 1)) := by
  exact (congrArg (k2_pay1 x0 x1) (eq_ix2 j)).trans (tile_r2_at x0 x1 (j 0) (j 1))

/-- The index maps over the grid: the left operand's tile moves with the result's, the right operand stays. -/
theorem maps_r2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

theorem flushed_r2 (c : Dev nD) (x : ((⟨S100000x128, .f32⟩ : BufTy).Contents (Elt Ideal))) (w : ((⟨S128x128, .f32⟩ : BufTy).Contents (Elt Ideal)))
    (hx : V c main_v51 = x) (hw : V c main_arg9 = w) (t : Fin cfg2.N) :
    (dat2 V c).flushed 2 t = ((cfg2.win 2).blk t).view.read (Elt Ideal) (prod_r2 x w) := by
  show (cfg2.win 2).cut (grid2.coords t) ((dat2 V c).after 2 t) = _
  rw [after2_2]
  unfold out2_2
  rw [View.canon_unit_zero hz_r2]
  simp only [View.ld_unit_zero (S := S5000x128) hz_r2, View.ld_unit_zero (S := S128x128) hz_r2]
  funext j
  show k2_pay1 (iblk2 V c 0 t) (iblk2 V c 1 t) j = prod_r2 x w (((cfg2.win 2).blk t).view.emb j)
  refine (tile_r2_at' _ _ j).trans ?_
  unfold prod_r2
  obtain ⟨e0, e1, e2, e3, e4, e5⟩ := maps_r2 t
  refine Finset.sum_congr rfl fun k _ => ?_
  have hl : iblk2 V c 0 t (ix2 (j 0) k) = x (ix2 ⟨((((cfg2.win 2).blk t).view.emb j) 0).val, ((((cfg2.win 2).blk t).view.emb j) 0).isLt⟩ k) := by
    show V c main_v51 (((cfg2.win 0).blk t).view.emb (ix2 (j 0) k)) = _
    rw [hx]
    refine congrArg x (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : iblk2 V c 1 t (ix2 k (j 1)) = w (ix2 k ⟨((((cfg2.win 2).blk t).view.emb j) 1).val, ((((cfg2.win 2).blk t).view.emb j) 1).isLt⟩) := by
    show V c main_arg9 (((cfg2.win 1).blk t).view.emb (ix2 k (j 1))) = _
    rw [hw]
    refine congrArg w (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hl, hr]

/-- An index of the result array is in tile t's block iff each coordinate is in the block's range on its axis. -/
theorem mem_blk_r2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- Row a lies in tile a / 5000: the twenty tiles cover the array. -/
theorem cover_r2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by omega
  refine ⟨⟨(i 0).val / 5000, ht⟩, flush2_2 _, ?_⟩
  rw [mem_blk_r2]
  obtain ⟨e0, e1, e2, e3, e4, e5⟩ := maps_r2 ⟨(i 0).val / 5000, ht⟩
  have e5' : win2_2.index ⟨(i 0).val / 5000, ht⟩ (0 : Fin 2) = (i 0).val / 5000 := e5
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

theorem region2_out (c : Dev nD) (x : ((⟨S100000x128, .f32⟩ : BufTy).Contents (Elt Ideal))) (w : ((⟨S128x128, .f32⟩ : BufTy).Contents (Elt Ideal)))
    (hx : V c main_v51 = x) (hw : V c main_arg9 = w) (a : Fin 100000) (b : Fin 128) :
    (dat2 V c).arrAt 2 cfg2.N (ix2 a b) = ∑ k : Fin 128, x (ix2 a k) * w (ix2 k b) := by
  rw [(dat2 V c).arrAt_eq_of_cover 2 (prod_r2 x w) (fun t _ => flushed_r2 V c x w hx hw t) cover_r2]
  rfl

end Cert.KernelIdeal.Chain

end
-- ==== Proof.RegionMM4.lean ====
/-
  Region 4: the third feature transform, a [100000,128] by [128,128] matrix product computed in 20 row tiles.
  Grid point t stages rows 5000·t … 5000·t+4999 of the left matrix and the whole right matrix, multiplies them on the
  matrix unit into a zero accumulator (recasting a tile to its own shape, and the narrowing of the operands to a shorter float format, are the
  identity on exact values), and writes block t of the result. Every entry (a, b) of the result array is therefore the sum over the
  contracted coordinate k of x (a, k) * w (k, b): the tile that holds row a computes exactly that sum, and the twenty
  tiles cover all rows.
-/
import proofs.«173683_j48155173322903_1_alg».proof.Proof.Gen.KernelIdeal.Frame
import proofs.«173683_j48155173322903_1_alg».proof.Proof.LibPlainDot
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r4 : (![0, 0] : Fin 2 → Nat) = fun _ => 0 := funext fun a => by
  match a with
  | ⟨0, _⟩ => rfl
  | ⟨1, _⟩ => rfl

/-- The whole product, entry by entry. -/
def prod_r4 (x : ((⟨S100000x128, .f32⟩ : BufTy).Contents (Elt Ideal))) (w : ((⟨S128x128, .f32⟩ : BufTy).Contents (Elt Ideal))) : ((⟨S100000x128, .f32⟩ : BufTy).Contents (Elt Ideal)) :=
  fun i => ∑ k : Fin 128, x (ix2 ⟨(i 0).val, (i 0).isLt⟩ k) * w (ix2 k ⟨(i 1).val, (i 1).isLt⟩)

/-- One tile's product at an entry of the tile: the sum over the contracted coordinate. -/
theorem tile_r4_at (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  simp only [shapeCast_self]
  exact Cert.LibPlainDot.matmul_zero_apply dot_S5000x128_S128x128_S5000x128_1_0_0_1_n_n rfl none _ _ p q

theorem tile_r4_at' (x0 : Vec Ideal S5000x128 .f32) (x1 : Vec Ideal S128x128 .f32) (j : S5000x128.Idx) :
    k4_pay1 x0 x1 j = ∑ k : Fin 128, x0 (ix2 (j 0) k) * x1 (ix2 k (j 1)) := by
  exact (congrArg (k4_pay1 x0 x1) (eq_ix2 j)).trans (tile_r4_at x0 x1 (j 0) (j 1))

/-- The index maps over the grid: the left operand's tile moves with the result's, the right operand stays. -/
theorem maps_r4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

theorem flushed_r4 (c : Dev nD) (x : ((⟨S100000x128, .f32⟩ : BufTy).Contents (Elt Ideal))) (w : ((⟨S128x128, .f32⟩ : BufTy).Contents (Elt Ideal)))
    (hx : V c main_v70 = x) (hw : V c main_arg15 = w) (t : Fin cfg4.N) :
    (dat4 V c).flushed 2 t = ((cfg4.win 2).blk t).view.read (Elt Ideal) (prod_r4 x w) := by
  show (cfg4.win 2).cut (grid4.coords t) ((dat4 V c).after 2 t) = _
  rw [after4_2]
  unfold out4_2
  rw [View.canon_unit_zero hz_r4]
  simp only [View.ld_unit_zero (S := S5000x128) hz_r4, View.ld_unit_zero (S := S128x128) hz_r4]
  funext j
  show k4_pay1 (iblk4 V c 0 t) (iblk4 V c 1 t) j = prod_r4 x w (((cfg4.win 2).blk t).view.emb j)
  refine (tile_r4_at' _ _ j).trans ?_
  unfold prod_r4
  obtain ⟨e0, e1, e2, e3, e4, e5⟩ := maps_r4 t
  refine Finset.sum_congr rfl fun k _ => ?_
  have hl : iblk4 V c 0 t (ix2 (j 0) k) = x (ix2 ⟨((((cfg4.win 2).blk t).view.emb j) 0).val, ((((cfg4.win 2).blk t).view.emb j) 0).isLt⟩ k) := by
    show V c main_v70 (((cfg4.win 0).blk t).view.emb (ix2 (j 0) k)) = _
    rw [hx]
    refine congrArg x (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hr : iblk4 V c 1 t (ix2 k (j 1)) = w (ix2 k ⟨((((cfg4.win 2).blk t).view.emb j) 1).val, ((((cfg4.win 2).blk t).view.emb j) 1).isLt⟩) := by
    show V c main_arg15 (((cfg4.win 1).blk t).view.emb (ix2 k (j 1))) = _
    rw [hw]
    refine congrArg w (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hl, hr]

/-- An index of the result array is in tile t's block iff each coordinate is in the block's range on its axis. -/
theorem mem_blk_r4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v71).slice (win4_2.rect t)).set ↔ _
  rw [View.set_slice_whole, Rect.mem_set_unit]
  exact Iff.rfl

/-- Row a lies in tile a / 5000: the twenty tiles cover the array. -/
theorem cover_r4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have ht : (i 0).val / 5000 < cfg4.N := by omega
  refine ⟨⟨(i 0).val / 5000, ht⟩, flush4_2 _, ?_⟩
  rw [mem_blk_r4]
  obtain ⟨e0, e1, e2, e3, e4, e5⟩ := maps_r4 ⟨(i 0).val / 5000, ht⟩
  have e5' : win4_2.index ⟨(i 0).val / 5000, ht⟩ (0 : Fin 2) = (i 0).val / 5000 := e5
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    omega

theorem region4_out (c : Dev nD) (x : ((⟨S100000x128, .f32⟩ : BufTy).Contents (Elt Ideal))) (w : ((⟨S128x128, .f32⟩ : BufTy).Contents (Elt Ideal)))
    (hx : V c main_v70 = x) (hw : V c main_arg15 = w) (a : Fin 100000) (b : Fin 128) :
    (dat4 V c).arrAt 2 cfg4.N (ix2 a b) = ∑ k : Fin 128, x (ix2 a k) * w (ix2 k b) := by
  rw [(dat4 V c).arrAt_eq_of_cover 2 (prod_r4 x w) (fun t _ => flushed_r4 V c x w hx hw t) cover_r4]
  rfl

end Cert.KernelIdeal.Chain

end
-- ==== Proof.Spec.lean ====
/-
  One entry of the fused layer both programs apply after each graph aggregation: a bias is added, the result is
  normalised with the stored mean and variance (eval-mode batch normalisation: subtract the mean, multiply by the
  reciprocal square root of the variance plus a fixed small constant, scale, shift), and the negative part is cut off.
  On the extended reals every step is the exact operation, so the value is one closed expression of six numbers.
-/
import Idealize.ShloMosaic.PureOps.Ideal

noncomputable section

namespace Cert.Spec

open Idealize.ShloMosaic

/-- `max ((((x + b) - μ) * rsqrt (σ² + ε)) * γ + β) 0`, with `ε` and `0` the two programs' own binary literals. -/
def bnRelu (x b mu var g beta : EReal) : EReal :=
  max ((((x + b) - mu) * Ideal.rsqrt (var + Ideal.ofBits .f32 0x3727C5AC#32)) * g + beta) (Ideal.ofBits .f32 0x00000000#32)

end Cert.Spec

end
-- ==== Proof.RegionBN1.lean ====
/-
  Region 1: what the array written by the fused bias, normalisation and cut-off holds after the region.
  Grid point t stages rows 5000·t … 5000·t+4999 of the [100000,128] input and the whole of five [1,128] rows (bias,
  scale, shift, mean, variance), and writes block t of the output. The body computes, entrywise with the rows broadcast
  down the 5000 rows, the maximum of (((x + bias) − mean) · rsqrt (variance + ε)) · scale + shift and 0. So block t of
  the output is block t of ONE function of the six arrays, the twenty blocks cover the output, and entry (a, b) of the
  output is that fused entry of the input's entry (a, b) and the five rows' entries at column b.
-/
import proofs.«173683_j48155173322903_1_alg».proof.Proof.Gen.KernelIdeal.Frame
import proofs.«173683_j48155173322903_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of the one load and the one store of the body, as the zero function. -/
theorem hz_r1 : (![0, 0] : Fin 2 → Nat) = fun _ => 0 :=
  funext fun a => match a with | ⟨0, _⟩ => rfl | ⟨1, _⟩ => rfl

/-- The body's result at row `p`, column `q` of its block: the fused entry of the block's entry there and of
    the five rows' entries at column `q`. Every layout step is read at the index (a cast to the same shape is the
    identity, a row broadcast down the block reads the row at the column, a broadcast constant is the constant) and the
    arithmetic is the exact operation by definition. -/
theorem pay_r1 (x0 : Vec Ideal S5000x128 .f32) (v2 v6 v11 v17 v21 : Vec Ideal S1x128 .f32) (p : Fin 5000) (q : Fin 128) :
    k1_pay1 x0 v2 v6 v11 v17 v21 (ix2 p q)
      = Cert.Spec.bnRelu (x0 (ix2 p q)) (v2 (ix2 0 q)) (v11 (ix2 0 q)) (v6 (ix2 0 q)) (v17 (ix2 0 q)) (v21 (ix2 0 q)) := by
  unfold k1_pay1 Cert.Spec.bnRelu
  simp only [shapeCast_self]
  simp only [maximumf_apply, addf_apply, mulf_apply, subf_apply, broadcast_apply, broadcastTo_1b_ab_apply]
  rfl

/-- The same at any index of the block. -/
theorem pay_r1' (x0 : Vec Ideal S5000x128 .f32) (v2 v6 v11 v17 v21 : Vec Ideal S1x128 .f32) (j : S5000x128.Idx) :
    k1_pay1 x0 v2 v6 v11 v17 v21 j
      = Cert.Spec.bnRelu (x0 (ix2 (j 0) (j 1))) (v2 (ix2 0 (j 1))) (v11 (ix2 0 (j 1))) (v6 (ix2 0 (j 1))) (v17 (ix2 0 (j 1))) (v21 (ix2 0 (j 1))) :=
  (congrArg (k1_pay1 x0 v2 v6 v11 v17 v21) (eq_ix2 j)).trans (pay_r1 x0 v2 v6 v11 v17 v21 (j 0) (j 1))

/-- The whole output array as one function of the six input arrays: entry `(r, q)` is the fused entry of the first
    array's entry `(r, q)` and of the five rows' entries at column `q`. -/
def bnArr_r1 (agg : ((⟨S100000x128, .f32⟩ : BufTy).Contents (Elt Ideal))) (p1 p2 p3 p4 p5 : ((⟨S1x128, .f32⟩ : BufTy).Contents (Elt Ideal))) :
    ((⟨S100000x128, .f32⟩ : BufTy).Contents (Elt Ideal)) :=
  fun i => Cert.Spec.bnRelu (agg i) (p1 (ix2 0 ⟨(i 1).val, (i 1).isLt⟩)) (p4 (ix2 0 ⟨(i 1).val, (i 1).isLt⟩))
    (p5 (ix2 0 ⟨(i 1).val, (i 1).isLt⟩)) (p2 (ix2 0 ⟨(i 1).val, (i 1).isLt⟩)) (p3 (ix2 0 ⟨(i 1).val, (i 1).isLt⟩))

/-- The index maps, decided over the twenty points: the first array's window and the output's sit at block `(t, 0)`,
    each row's window at block `(0, 0)`. -/
theorem maps_r1 : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The first array's block at `j` is the array's entry where the output's block puts `j`: the two windows have the
    same index map. -/
theorem rd0_r1 (c : Dev nD) (agg : ((⟨S100000x128, .f32⟩ : BufTy).Contents (Elt Ideal))) (h0 : V c main_v45 = agg) (t : Fin cfg1.N) (j : S5000x128.Idx) :
    iblk1 V c 0 t (ix2 (j 0) (j 1)) = agg (((cfg1.win 6).blk t).view.emb j) := by
  obtain ⟨e00, e01, e60, e61, e10, e11, e20, e21, e30, e31, e40, e41, e50, e51⟩ := maps_r1 t
  show V c main_v45 (((cfg1.win 0).blk t).view.emb (ix2 (j 0) (j 1))) = _
  rw [h0]
  refine congrArg agg (funext fun a => Fin.ext ?_)
  match a with
  | ⟨0, _⟩ => show win1_0.index t (0 : Fin 2) * 5000 + 1 * (j 0).val = win1_6.index t (0 : Fin 2) * 5000 + 1 * (j 0).val; omega
  | ⟨1, _⟩ => show win1_0.index t (1 : Fin 2) * 128 + 1 * (j 1).val = win1_6.index t (1 : Fin 2) * 128 + 1 * (j 1).val; omega

/-- Row window 1's block at column `j 1` is the row's entry at the column the output's block puts `j` at. -/
theorem rd1_r1 (c : Dev nD) (p1 : ((⟨S1x128, .f32⟩ : BufTy).Contents (Elt Ideal))) (h1 : V c main_v46 = p1) (t : Fin cfg1.N) (j : S5000x128.Idx) :
    iblk1 V c 1 t (ix2 0 (j 1)) = p1 (ix2 0 ⟨((((cfg1.win 6).blk t).view.emb j) 1).val, ((((cfg1.win 6).blk t).view.emb j) 1).isLt⟩) := by
  obtain ⟨e00, e01, e60, e61, e10, e11, e20, e21, e30, e31, e40, e41, e50, e51⟩ := maps_r1 t
  show V c main_v46 (((cfg1.win 1).blk t).view.emb (ix2 0 (j 1))) = _
  rw [h1]
  refine congrArg p1 (funext fun a => Fin.ext ?_)
  match a with
  | ⟨0, _⟩ => show win1_1.index t (0 : Fin 2) * 1 + 1 * 0 = 0; omega
  | ⟨1, _⟩ => show win1_1.index t (1 : Fin 2) * 128 + 1 * (j 1).val = win1_6.index t (1 : Fin 2) * 128 + 1 * (j 1).val; omega

/-- Row window 2's block at column `j 1` is the row's entry at the column the output's block puts `j` at. -/
theorem rd2_r1 (c : Dev nD) (p2 : ((⟨S1x128, .f32⟩ : BufTy).Contents (Elt Ideal))) (h2 : V c main_v47 = p2) (t : Fin cfg1.N) (j : S5000x128.Idx) :
    iblk1 V c 2 t (ix2 0 (j 1)) = p2 (ix2 0 ⟨((((cfg1.win 6).blk t).view.emb j) 1).val, ((((cfg1.win 6).blk t).view.emb j) 1).isLt⟩) := by
  obtain ⟨e00, e01, e60, e61, e10, e11, e20, e21, e30, e31, e40, e41, e50, e51⟩ := maps_r1 t
  show V c main_v47 (((cfg1.win 2).blk t).view.emb (ix2 0 (j 1))) = _
  rw [h2]
  refine congrArg p2 (funext fun a => Fin.ext ?_)
  match a with
  | ⟨0, _⟩ => show win1_2.index t (0 : Fin 2) * 1 + 1 * 0 = 0; omega
  | ⟨1, _⟩ => show win1_2.index t (1 : Fin 2) * 128 + 1 * (j 1).val = win1_6.index t (1 : Fin 2) * 128 + 1 * (j 1).val; omega

/-- Row window 3's block at column `j 1` is the row's entry at the column the output's block puts `j` at. -/
theorem rd3_r1 (c : Dev nD) (p3 : ((⟨S1x128, .f32⟩ : BufTy).Contents (Elt Ideal))) (h3 : V c main_v48 = p3) (t : Fin cfg1.N) (j : S5000x128.Idx) :
    iblk1 V c 3 t (ix2 0 (j 1)) = p3 (ix2 0 ⟨((((cfg1.win 6).blk t).view.emb j) 1).val, ((((cfg1.win 6).blk t).view.emb j) 1).isLt⟩) := by
  obtain ⟨e00, e01, e60, e61, e10, e11, e20, e21, e30, e31, e40, e41, e50, e51⟩ := maps_r1 t
  show V c main_v48 (((cfg1.win 3).blk t).view.emb (ix2 0 (j 1))) = _
  rw [h3]
  refine congrArg p3 (funext fun a => Fin.ext ?_)
  match a with
  | ⟨0, _⟩ => show win1_3.index t (0 : Fin 2) * 1 + 1 * 0 = 0; omega
  | ⟨1, _⟩ => show win1_3.index t (1 : Fin 2) * 128 + 1 * (j 1).val = win1_6.index t (1 : Fin 2) * 128 + 1 * (j 1).val; omega

/-- Row window 4's block at column `j 1` is the row's entry at the column the output's block puts `j` at. -/
theorem rd4_r1 (c : Dev nD) (p4 : ((⟨S1x128, .f32⟩ : BufTy).Contents (Elt Ideal))) (h4 : V c main_v49 = p4) (t : Fin cfg1.N) (j : S5000x128.Idx) :
    iblk1 V c 4 t (ix2 0 (j 1)) = p4 (ix2 0 ⟨((((cfg1.win 6).blk t).view.emb j) 1).val, ((((cfg1.win 6).blk t).view.emb j) 1).isLt⟩) := by
  obtain ⟨e00, e01, e60, e61, e10, e11, e20, e21, e30, e31, e40, e41, e50, e51⟩ := maps_r1 t
  show V c main_v49 (((cfg1.win 4).blk t).view.emb (ix2 0 (j 1))) = _
  rw [h4]
  refine congrArg p4 (funext fun a => Fin.ext ?_)
  match a with
  | ⟨0, _⟩ => show win1_4.index t (0 : Fin 2) * 1 + 1 * 0 = 0; omega
  | ⟨1, _⟩ => show win1_4.index t (1 : Fin 2) * 128 + 1 * (j 1).val = win1_6.index t (1 : Fin 2) * 128 + 1 * (j 1).val; omega

/-- Row window 5's block at column `j 1` is the row's entry at the column the output's block puts `j` at. -/
theorem rd5_r1 (c : Dev nD) (p5 : ((⟨S1x128, .f32⟩ : BufTy).Contents (Elt Ideal))) (h5 : V c main_v50 = p5) (t : Fin cfg1.N) (j : S5000x128.Idx) :
    iblk1 V c 5 t (ix2 0 (j 1)) = p5 (ix2 0 ⟨((((cfg1.win 6).blk t).view.emb j) 1).val, ((((cfg1.win 6).blk t).view.emb j) 1).isLt⟩) := by
  obtain ⟨e00, e01, e60, e61, e10, e11, e20, e21, e30, e31, e40, e41, e50, e51⟩ := maps_r1 t
  show V c main_v50 (((cfg1.win 5).blk t).view.emb (ix2 0 (j 1))) = _
  rw [h5]
  refine congrArg p5 (funext fun a => Fin.ext ?_)
  match a with
  | ⟨0, _⟩ => show win1_5.index t (0 : Fin 2) * 1 + 1 * 0 = 0; omega
  | ⟨1, _⟩ => show win1_5.index t (1 : Fin 2) * 128 + 1 * (j 1).val = win1_6.index t (1 : Fin 2) * 128 + 1 * (j 1).val; omega

/-- The fused entry of equal arguments. -/
theorem bnRelu_congr_r1 {x x' b b' mu mu' var var' g g' beta beta' : EReal} (hx : x = x') (hb : b = b') (hmu : mu = mu')
    (hvar : var = var') (hg : g = g') (hbeta : beta = beta') :
    Cert.Spec.bnRelu x b mu var g beta = Cert.Spec.bnRelu x' b' mu' var' g' beta' := by
  subst hx hb hmu hvar hg hbeta; rfl

/-- What point `t` writes back is block `t` of `bnArr_r1` of the arrays as the region finds them. -/
theorem flushed_r1 (c : Dev nD) (agg : ((⟨S100000x128, .f32⟩ : BufTy).Contents (Elt Ideal))) (p1 p2 p3 p4 p5 : ((⟨S1x128, .f32⟩ : BufTy).Contents (Elt Ideal)))
    (h0 : V c main_v45 = agg) (h1 : V c main_v46 = p1) (h2 : V c main_v47 = p2) (h3 : V c main_v48 = p3)
    (h4 : V c main_v49 = p4) (h5 : V c main_v50 = p5) (t : Fin cfg1.N) :
    (dat1 V c).flushed 6 t = ((cfg1.win 6).blk t).view.read (Elt Ideal) (bnArr_r1 agg p1 p2 p3 p4 p5) := by
  show (cfg1.win 6).cut (grid1.coords t) ((dat1 V c).after 6 t) = _
  rw [after1_6]
  unfold out1_6
  rw [View.canon_unit_zero hz_r1]
  simp only [View.ld_unit_zero (S := S5000x128) hz_r1, View.ld_unit_zero (S := S1x128) hz_r1]
  funext j
  show k1_pay1 (iblk1 V c 0 t) (iblk1 V c 1 t) (iblk1 V c 5 t) (iblk1 V c 4 t) (iblk1 V c 2 t) (iblk1 V c 3 t) j
    = bnArr_r1 agg p1 p2 p3 p4 p5 (((cfg1.win 6).blk t).view.emb j)
  refine (pay_r1' (iblk1 V c 0 t) (iblk1 V c 1 t) (iblk1 V c 5 t) (iblk1 V c 4 t) (iblk1 V c 2 t) (iblk1 V c 3 t) j).trans ?_
  unfold bnArr_r1
  exact bnRelu_congr_r1 (rd0_r1 V c agg h0 t j) (rd1_r1 V c p1 h1 t j) (rd4_r1 V c p4 h4 t j) (rd5_r1 V c p5 h5 t j)
    (rd2_r1 V c p2 h2 t j) (rd3_r1 V c p3 h3 t j)

/-- An index of the output array is in point `t`'s block iff each coordinate is in the block's range on its axis. -/
theorem mem_blk_r1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v51).slice (win1_6.rect t)).set ↔ _
  rw [View.set_slice_whole, Rect.mem_set_unit]
  exact Iff.rfl

/-- Row `r` lies in the block of point `r / 5000`: the twenty blocks cover the array. -/
theorem cover_r1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by omega
  refine ⟨⟨(i 0).val / 5000, ht⟩, flush1_6 _, ?_⟩
  rw [mem_blk_r1]
  obtain ⟨e00, e01, e60, e61, -⟩ := maps_r1 ⟨(i 0).val / 5000, ht⟩
  have e60' : win1_6.index ⟨(i 0).val / 5000, ht⟩ (0 : Fin 2) = (i 0).val / 5000 := e60
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    omega

theorem region1_out (c : Dev nD) (agg : ((⟨S100000x128, .f32⟩ : BufTy).Contents (Elt Ideal))) (p1 p2 p3 p4 p5 : ((⟨S1x128, .f32⟩ : BufTy).Contents (Elt Ideal)))
    (h0 : V c main_v45 = agg) (h1 : V c main_v46 = p1) (h2 : V c main_v47 = p2) (h3 : V c main_v48 = p3)
    (h4 : V c main_v49 = p4) (h5 : V c main_v50 = p5) (a : Fin 100000) (b : Fin 128) :
    (dat1 V c).arrAt 6 cfg1.N (ix2 a b)
      = Cert.Spec.bnRelu (agg (ix2 a b)) (p1 (ix2 0 b)) (p4 (ix2 0 b)) (p5 (ix2 0 b)) (p2 (ix2 0 b)) (p3 (ix2 0 b)) := by
  rw [(dat1 V c).arrAt_eq_of_cover 6 (bnArr_r1 agg p1 p2 p3 p4 p5) (fun t _ => flushed_r1 V c agg p1 p2 p3 p4 p5 h0 h1 h2 h3 h4 h5 t) cover_r1]
  rfl

end Cert.KernelIdeal.Chain

end
-- ==== Proof.RegionBN3.lean ====
/-
  Region 3: what the array written by the fused bias, normalisation and cut-off holds after the region.
  Grid point t stages rows 5000·t … 5000·t+4999 of the aggregated array and of the residual array, and the five one-row
  arrays (bias, scale, shift, mean, variance) whole; it adds the bias, subtracts the mean, multiplies by the reciprocal
  square root of the variance plus a small constant, scales, shifts, cuts off the negative part and adds the residual,
  entrywise with each row repeated down the tile, and writes block t of the result. Every entry (a, b) of the result is
  therefore that closed expression of the aggregated entry (a, b), the five rows' entries (0, b) and the residual entry
  (a, b): the tile that holds row a computes it, and the twenty tiles cover all rows.
-/
import proofs.«173683_j48155173322903_1_alg».proof.Proof.Gen.KernelIdeal.Frame
import proofs.«173683_j48155173322903_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r3 : (![0, 0] : Fin 2 → Nat) = fun _ => 0 := funext fun a => by
  match a with
  | ⟨0, _⟩ => rfl
  | ⟨1, _⟩ => rfl

/-- One tile's value at an entry (p, q) of the tile: the closed expression of the tile's entry, the five rows' entries
    at column q, and the residual tile's entry. Every row is repeated down the tile's rows, so it is read at (0, q). -/
theorem tile_r3 (x0 : Vec Ideal S5000x128 .f32) (bi g be mu var : Vec Ideal S1x128 .f32) (x6 : Vec Ideal S5000x128 .f32) (p : Fin 5000) (q : Fin 128) :
    k3_pay1 x0 bi var mu g be x6 (ix2 p q)
      = Cert.Spec.bnRelu (x0 (ix2 p q)) (bi (ix2 0 q)) (mu (ix2 0 q)) (var (ix2 0 q)) (g (ix2 0 q)) (be (ix2 0 q)) + x6 (ix2 p q) := by
  have hb : ∀ (v : Vec Ideal S1x128 .f32), broadcastTo S5000x128 v broadcasts_S1x128_S5000x128 (ix2 p q) = v (ix2 (0 : Fin 1) q) :=
    fun v => broadcastTo_1b_ab_apply v _ p q
  unfold k3_pay1
  simp only [shapeCast_self]
  show FloatOps.addf (F := Ideal) (FloatOps.maximumf (F := Ideal) (FloatOps.addf (F := Ideal) (FloatOps.mulf (F := Ideal) (FloatOps.mulf (F := Ideal) (FloatOps.subf
      (FloatOps.addf (F := Ideal) (x0 (ix2 p q)) (broadcastTo S5000x128 bi broadcasts_S1x128_S5000x128 (ix2 p q)))
      (broadcastTo S5000x128 mu broadcasts_S1x128_S5000x128 (ix2 p q)))
      (broadcastTo S5000x128 (rsqrt (addf var (broadcast S1x128 (FloatOps.ofBits (F := Ideal) FTy.f32 0x3727C5AC#32)))) broadcasts_S1x128_S5000x128 (ix2 p q)))
      (broadcastTo S5000x128 g broadcasts_S1x128_S5000x128 (ix2 p q)))
      (broadcastTo S5000x128 be broadcasts_S1x128_S5000x128 (ix2 p q)))
      (FloatOps.ofBits (F := Ideal) FTy.f32 0x00000000#32)) (x6 (ix2 p q)) = _
  rw [hb bi, hb mu, hb g, hb be, hb]
  rfl

theorem tileIdx_r3 (x0 : Vec Ideal S5000x128 .f32) (bi g be mu var : Vec Ideal S1x128 .f32) (x6 : Vec Ideal S5000x128 .f32) (j : S5000x128.Idx) :
    k3_pay1 x0 bi var mu g be x6 j
      = Cert.Spec.bnRelu (x0 (ix2 (j 0) (j 1))) (bi (ix2 0 (j 1))) (mu (ix2 0 (j 1))) (var (ix2 0 (j 1))) (g (ix2 0 (j 1))) (be (ix2 0 (j 1))) + x6 (ix2 (j 0) (j 1)) := by
  exact (congrArg (k3_pay1 x0 bi var mu g be x6) (eq_ix2 j)).trans (tile_r3 x0 bi g be mu var x6 (j 0) (j 1))

/-- The whole result, entry by entry: the closed expression of the aggregated entry and the five rows' entries at the
    entry's column, plus the residual entry. -/
def G_r3 (agg : ((⟨S100000x128, .f32⟩ : BufTy).Contents (Elt Ideal))) (p1 p2 p3 p4 p5 : ((⟨S1x128, .f32⟩ : BufTy).Contents (Elt Ideal))) (res : ((⟨S100000x128, .f32⟩ : BufTy).Contents (Elt Ideal))) : ((⟨S100000x128, .f32⟩ : BufTy).Contents (Elt Ideal)) :=
  fun i => Cert.Spec.bnRelu (agg i) (p1 (ix2 0 ⟨(i 1).val, (i 1).isLt⟩)) (p4 (ix2 0 ⟨(i 1).val, (i 1).isLt⟩)) (p5 (ix2 0 ⟨(i 1).val, (i 1).isLt⟩))
    (p2 (ix2 0 ⟨(i 1).val, (i 1).isLt⟩)) (p3 (ix2 0 ⟨(i 1).val, (i 1).isLt⟩)) + res i

/-- The index maps over the grid: the aggregated tile and the residual tile move with the result's tile (row tile t,
    column tile 0); the five rows stay at (0, 0). -/
theorem maps_r3 : ∀ t : Fin cfg3.N,
    (win3_0.index t (0 : Fin 2) = win3_7.index t (0 : Fin 2) ∧ win3_0.index t (1 : Fin 2) = 0)
    ∧ (win3_6.index t (0 : Fin 2) = win3_7.index t (0 : Fin 2) ∧ win3_6.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ win3_7.index t (1 : Fin 2) = 0 ∧ win3_7.index t (0 : Fin 2) = t.val :=
  (by decide +kernel : ∀ t : Fin grid3.N, _)

/- Each staged block read where the result's tile says: a block's coordinate in its array is the block index times the
   block size plus the coordinate inside the block. The aggregated tile and the residual tile sit where the result's tile
   sits; each of the five rows is the whole one-row array. -/

theorem blk0_r3 (c : Dev nD) (agg : ((⟨S100000x128, .f32⟩ : BufTy).Contents (Elt Ideal))) (h : V c main_v64 = agg) (t : Fin cfg3.N) (j : S5000x128.Idx) :
    iblk3 V c 0 t (ix2 (j 0) (j 1)) = agg (((cfg3.win 7).blk t).view.emb j) := by
  obtain ⟨⟨a0, a1⟩, ⟨r0, r1⟩, _, _, _, _, _, o1, o0⟩ := maps_r3 t
  show V c main_v64 (((cfg3.win 0).blk t).view.emb (ix2 (j 0) (j 1))) = _
  rw [h]
  refine congrArg agg (funext fun a => Fin.ext ?_)
  match a with
  | ⟨0, _⟩ => show win3_0.index t (0 : Fin 2) * 5000 + 1 * (j 0).val = win3_7.index t (0 : Fin 2) * 5000 + 1 * (j 0).val; omega
  | ⟨1, _⟩ => show win3_0.index t (1 : Fin 2) * 128 + 1 * (j 1).val = win3_7.index t (1 : Fin 2) * 128 + 1 * (j 1).val; omega

theorem blk6_r3 (c : Dev nD) (res : ((⟨S100000x128, .f32⟩ : BufTy).Contents (Elt Ideal))) (h : V c main_v51 = res) (t : Fin cfg3.N) (j : S5000x128.Idx) :
    iblk3 V c 6 t (ix2 (j 0) (j 1)) = res (((cfg3.win 7).blk t).view.emb j) := by
  obtain ⟨⟨a0, a1⟩, ⟨r0, r1⟩, _, _, _, _, _, o1, o0⟩ := maps_r3 t
  show V c main_v51 (((cfg3.win 6).blk t).view.emb (ix2 (j 0) (j 1))) = _
  rw [h]
  refine congrArg res (funext fun a => Fin.ext ?_)
  match a with
  | ⟨0, _⟩ => show win3_6.index t (0 : Fin 2) * 5000 + 1 * (j 0).val = win3_7.index t (0 : Fin 2) * 5000 + 1 * (j 0).val; omega
  | ⟨1, _⟩ => show win3_6.index t (1 : Fin 2) * 128 + 1 * (j 1).val = win3_7.index t (1 : Fin 2) * 128 + 1 * (j 1).val; omega

theorem blk1_r3 (c : Dev nD) (p1 : ((⟨S1x128, .f32⟩ : BufTy).Contents (Elt Ideal))) (h : V c main_v65 = p1) (t : Fin cfg3.N) (j : S5000x128.Idx) :
    iblk3 V c 1 t (ix2 0 (j 1)) = p1 (ix2 0 ⟨((((cfg3.win 7).blk t).view.emb j) 1).val, ((((cfg3.win 7).blk t).view.emb j) 1).isLt⟩) := by
  obtain ⟨_, _, ⟨b0, b1⟩, ⟨g0, g1⟩, ⟨s0, s1⟩, ⟨m0, m1⟩, ⟨v0, v1⟩, o1, o0⟩ := maps_r3 t
  show V c main_v65 (((cfg3.win 1).blk t).view.emb (ix2 0 (j 1))) = _
  rw [h]
  refine congrArg p1 (funext fun a => Fin.ext ?_)
  match a with
  | ⟨0, _⟩ => show win3_1.index t (0 : Fin 2) * 1 + 1 * 0 = 0; omega
  | ⟨1, _⟩ => show win3_1.index t (1 : Fin 2) * 128 + 1 * (j 1).val = win3_7.index t (1 : Fin 2) * 128 + 1 * (j 1).val; omega

theorem blk2_r3 (c : Dev nD) (p2 : ((⟨S1x128, .f32⟩ : BufTy).Contents (Elt Ideal))) (h : V c main_v66 = p2) (t : Fin cfg3.N) (j : S5000x128.Idx) :
    iblk3 V c 2 t (ix2 0 (j 1)) = p2 (ix2 0 ⟨((((cfg3.win 7).blk t).view.emb j) 1).val, ((((cfg3.win 7).blk t).view.emb j) 1).isLt⟩) := by
  obtain ⟨_, _, ⟨b0, b1⟩, ⟨g0, g1⟩, ⟨s0, s1⟩, ⟨m0, m1⟩, ⟨v0, v1⟩, o1, o0⟩ := maps_r3 t
  show V c main_v66 (((cfg3.win 2).blk t).view.emb (ix2 0 (j 1))) = _
  rw [h]
  refine congrArg p2 (funext fun a => Fin.ext ?_)
  match a with
  | ⟨0, _⟩ => show win3_2.index t (0 : Fin 2) * 1 + 1 * 0 = 0; omega
  | ⟨1, _⟩ => show win3_2.index t (1 : Fin 2) * 128 + 1 * (j 1).val = win3_7.index t (1 : Fin 2) * 128 + 1 * (j 1).val; omega

theorem blk3_r3 (c : Dev nD) (p3 : ((⟨S1x128, .f32⟩ : BufTy).Contents (Elt Ideal))) (h : V c main_v67 = p3) (t : Fin cfg3.N) (j : S5000x128.Idx) :
    iblk3 V c 3 t (ix2 0 (j 1)) = p3 (ix2 0 ⟨((((cfg3.win 7).blk t).view.emb j) 1).val, ((((cfg3.win 7).blk t).view.emb j) 1).isLt⟩) := by
  obtain ⟨_, _, ⟨b0, b1⟩, ⟨g0, g1⟩, ⟨s0, s1⟩, ⟨m0, m1⟩, ⟨v0, v1⟩, o1, o0⟩ := maps_r3 t
  show V c main_v67 (((cfg3.win 3).blk t).view.emb (ix2 0 (j 1))) = _
  rw [h]
  refine congrArg p3 (funext fun a => Fin.ext ?_)
  match a with
  | ⟨0, _⟩ => show win3_3.index t (0 : Fin 2) * 1 + 1 * 0 = 0; omega
  | ⟨1, _⟩ => show win3_3.index t (1 : Fin 2) * 128 + 1 * (j 1).val = win3_7.index t (1 : Fin 2) * 128 + 1 * (j 1).val; omega

theorem blk4_r3 (c : Dev nD) (p4 : ((⟨S1x128, .f32⟩ : BufTy).Contents (Elt Ideal))) (h : V c main_v68 = p4) (t : Fin cfg3.N) (j : S5000x128.Idx) :
    iblk3 V c 4 t (ix2 0 (j 1)) = p4 (ix2 0 ⟨((((cfg3.win 7).blk t).view.emb j) 1).val, ((((cfg3.win 7).blk t).view.emb j) 1).isLt⟩) := by
  obtain ⟨_, _, ⟨b0, b1⟩, ⟨g0, g1⟩, ⟨s0, s1⟩, ⟨m0, m1⟩, ⟨v0, v1⟩, o1, o0⟩ := maps_r3 t
  show V c main_v68 (((cfg3.win 4).blk t).view.emb (ix2 0 (j 1))) = _
  rw [h]
  refine congrArg p4 (funext fun a => Fin.ext ?_)
  match a with
  | ⟨0, _⟩ => show win3_4.index t (0 : Fin 2) * 1 + 1 * 0 = 0; omega
  | ⟨1, _⟩ => show win3_4.index t (1 : Fin 2) * 128 + 1 * (j 1).val = win3_7.index t (1 : Fin 2) * 128 + 1 * (j 1).val; omega

theorem blk5_r3 (c : Dev nD) (p5 : ((⟨S1x128, .f32⟩ : BufTy).Contents (Elt Ideal))) (h : V c main_v69 = p5) (t : Fin cfg3.N) (j : S5000x128.Idx) :
    iblk3 V c 5 t (ix2 0 (j 1)) = p5 (ix2 0 ⟨((((cfg3.win 7).blk t).view.emb j) 1).val, ((((cfg3.win 7).blk t).view.emb j) 1).isLt⟩) := by
  obtain ⟨_, _, ⟨b0, b1⟩, ⟨g0, g1⟩, ⟨s0, s1⟩, ⟨m0, m1⟩, ⟨v0, v1⟩, o1, o0⟩ := maps_r3 t
  show V c main_v69 (((cfg3.win 5).blk t).view.emb (ix2 0 (j 1))) = _
  rw [h]
  refine congrArg p5 (funext fun a => Fin.ext ?_)
  match a with
  | ⟨0, _⟩ => show win3_5.index t (0 : Fin 2) * 1 + 1 * 0 = 0; omega
  | ⟨1, _⟩ => show win3_5.index t (1 : Fin 2) * 128 + 1 * (j 1).val = win3_7.index t (1 : Fin 2) * 128 + 1 * (j 1).val; omega

theorem flushed_r3 (c : Dev nD) (agg : ((⟨S100000x128, .f32⟩ : BufTy).Contents (Elt Ideal))) (p1 p2 p3 p4 p5 : ((⟨S1x128, .f32⟩ : BufTy).Contents (Elt Ideal))) (res : ((⟨S100000x128, .f32⟩ : BufTy).Contents (Elt Ideal)))
    (h0 : V c main_v64 = agg) (h1 : V c main_v65 = p1) (h2 : V c main_v66 = p2) (h3 : V c main_v67 = p3)
    (h4 : V c main_v68 = p4) (h5 : V c main_v69 = p5) (h6 : V c main_v51 = res) (t : Fin cfg3.N) :
    (dat3 V c).flushed 7 t = ((cfg3.win 7).blk t).view.read (Elt Ideal) (G_r3 agg p1 p2 p3 p4 p5 res) := by
  show (cfg3.win 7).cut (grid3.coords t) ((dat3 V c).after 7 t) = _
  rw [after3_7]
  unfold out3_7
  rw [View.canon_unit_zero hz_r3]
  simp only [View.ld_unit_zero (S := S5000x128) hz_r3, View.ld_unit_zero (S := S1x128) hz_r3]
  funext j
  show k3_pay1 (iblk3 V c 0 t) (iblk3 V c 1 t) (iblk3 V c 5 t) (iblk3 V c 4 t) (iblk3 V c 2 t) (iblk3 V c 3 t) (iblk3 V c 6 t) j
    = G_r3 agg p1 p2 p3 p4 p5 res (((cfg3.win 7).blk t).view.emb j)
  refine (tileIdx_r3 _ _ _ _ _ _ _ j).trans ?_
  unfold G_r3
  rw [blk0_r3 V c agg h0 t j, blk6_r3 V c res h6 t j, blk1_r3 V c p1 h1 t j, blk2_r3 V c p2 h2 t j, blk3_r3 V c p3 h3 t j,
    blk4_r3 V c p4 h4 t j, blk5_r3 V c p5 h5 t j]

/-- An index of the result array is in tile t's block iff each coordinate is in the block's range on its axis. -/
theorem mem_blk_r3 (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v70).slice (win3_7.rect t)).set ↔ _
  rw [View.set_slice_whole, Rect.mem_set_unit]
  exact Iff.rfl

/-- Row a lies in tile a / 5000: the twenty tiles cover the array. -/
theorem cover_r3 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 20 := N_3
  have ht : (i 0).val / 5000 < cfg3.N := by omega
  refine ⟨⟨(i 0).val / 5000, ht⟩, flush3_7 _, ?_⟩
  rw [mem_blk_r3]
  obtain ⟨_, _, _, _, _, _, _, o1, o0⟩ := maps_r3 ⟨(i 0).val / 5000, ht⟩
  have o0' : win3_7.index ⟨(i 0).val / 5000, ht⟩ (0 : Fin 2) = (i 0).val / 5000 := o0
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    omega
  | ⟨1, _⟩ =>
    show win3_7.index ⟨(i 0).val / 5000, ht⟩ (1 : Fin 2) * 128 ≤ (i 1).val ∧ (i 1).val < win3_7.index ⟨(i 0).val / 5000, ht⟩ (1 : Fin 2) * 128 + 128
    omega

theorem region3_out (c : Dev nD) (agg : ((⟨S100000x128, .f32⟩ : BufTy).Contents (Elt Ideal))) (p1 p2 p3 p4 p5 : ((⟨S1x128, .f32⟩ : BufTy).Contents (Elt Ideal))) (res : ((⟨S100000x128, .f32⟩ : BufTy).Contents (Elt Ideal)))
    (h0 : V c main_v64 = agg) (h1 : V c main_v65 = p1) (h2 : V c main_v66 = p2) (h3 : V c main_v67 = p3)
    (h4 : V c main_v68 = p4) (h5 : V c main_v69 = p5) (h6 : V c main_v51 = res) (a : Fin 100000) (b : Fin 128) :
    (dat3 V c).arrAt 7 cfg3.N (ix2 a b)
      = Cert.Spec.bnRelu (agg (ix2 a b)) (p1 (ix2 0 b)) (p4 (ix2 0 b)) (p5 (ix2 0 b)) (p2 (ix2 0 b)) (p3 (ix2 0 b)) + res (ix2 a b) := by
  rw [(dat3 V c).arrAt_eq_of_cover 7 (G_r3 agg p1 p2 p3 p4 p5 res) (fun t _ => flushed_r3 V c agg p1 p2 p3 p4 p5 res h0 h1 h2 h3 h4 h5 h6 t) cover_r3]
  rfl

end Cert.KernelIdeal.Chain

end
-- ==== Proof.RegionBN5.lean ====
/-
  Region 5: what the array written by the fused bias, normalisation and cut-off holds after the region.
  Grid point t stages rows 5000·t … 5000·t+4999 of the [100000,128] input and the whole of five [1,128] rows (bias,
  scale, shift, mean, variance), and writes block t of the output. The body computes, entrywise with the rows broadcast
  down the 5000 rows, the maximum of (((x + bias) − mean) · rsqrt (variance + ε)) · scale + shift and 0. So block t of
  the output is block t of ONE function of the six arrays, the twenty blocks cover the output, and entry (a, b) of the
  output is that fused entry of the input's entry (a, b) and the five rows' entries at column b.
-/
import proofs.«173683_j48155173322903_1_alg».proof.Proof.Gen.KernelIdeal.Frame
import proofs.«173683_j48155173322903_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of the one load and the one store of the body, as the zero function. -/
theorem hz_r5 : (![0, 0] : Fin 2 → Nat) = fun _ => 0 :=
  funext fun a => match a with | ⟨0, _⟩ => rfl | ⟨1, _⟩ => rfl

/-- The body's result at row `p`, column `q` of its block: the fused entry of the block's entry there and of
    the five rows' entries at column `q`. Every layout step is read at the index (a cast to the same shape is the
    identity, a row broadcast down the block reads the row at the column, a broadcast constant is the constant) and the
    arithmetic is the exact operation by definition. -/
theorem pay_r5 (x0 : Vec Ideal S5000x128 .f32) (v2 v6 v11 v17 v21 : Vec Ideal S1x128 .f32) (p : Fin 5000) (q : Fin 128) :
    k5_pay1 x0 v2 v6 v11 v17 v21 (ix2 p q)
      = Cert.Spec.bnRelu (x0 (ix2 p q)) (v2 (ix2 0 q)) (v11 (ix2 0 q)) (v6 (ix2 0 q)) (v17 (ix2 0 q)) (v21 (ix2 0 q)) := by
  unfold k5_pay1 Cert.Spec.bnRelu
  simp only [shapeCast_self]
  simp only [maximumf_apply, addf_apply, mulf_apply, subf_apply, broadcast_apply, broadcastTo_1b_ab_apply]
  rfl

/-- The same at any index of the block. -/
theorem pay_r5' (x0 : Vec Ideal S5000x128 .f32) (v2 v6 v11 v17 v21 : Vec Ideal S1x128 .f32) (j : S5000x128.Idx) :
    k5_pay1 x0 v2 v6 v11 v17 v21 j
      = Cert.Spec.bnRelu (x0 (ix2 (j 0) (j 1))) (v2 (ix2 0 (j 1))) (v11 (ix2 0 (j 1))) (v6 (ix2 0 (j 1))) (v17 (ix2 0 (j 1))) (v21 (ix2 0 (j 1))) :=
  (congrArg (k5_pay1 x0 v2 v6 v11 v17 v21) (eq_ix2 j)).trans (pay_r5 x0 v2 v6 v11 v17 v21 (j 0) (j 1))

/-- The whole output array as one function of the six input arrays: entry `(r, q)` is the fused entry of the first
    array's entry `(r, q)` and of the five rows' entries at column `q`. -/
def bnArr_r5 (agg : ((⟨S100000x128, .f32⟩ : BufTy).Contents (Elt Ideal))) (p1 p2 p3 p4 p5 : ((⟨S1x128, .f32⟩ : BufTy).Contents (Elt Ideal))) :
    ((⟨S100000x128, .f32⟩ : BufTy).Contents (Elt Ideal)) :=
  fun i => Cert.Spec.bnRelu (agg i) (p1 (ix2 0 ⟨(i 1).val, (i 1).isLt⟩)) (p4 (ix2 0 ⟨(i 1).val, (i 1).isLt⟩))
    (p5 (ix2 0 ⟨(i 1).val, (i 1).isLt⟩)) (p2 (ix2 0 ⟨(i 1).val, (i 1).isLt⟩)) (p3 (ix2 0 ⟨(i 1).val, (i 1).isLt⟩))

/-- The index maps, decided over the twenty points: the first array's window and the output's sit at block `(t, 0)`,
    each row's window at block `(0, 0)`. -/
theorem maps_r5 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The first array's block at `j` is the array's entry where the output's block puts `j`: the two windows have the
    same index map. -/
theorem rd0_r5 (c : Dev nD) (agg : ((⟨S100000x128, .f32⟩ : BufTy).Contents (Elt Ideal))) (h0 : V c main_v83 = agg) (t : Fin cfg5.N) (j : S5000x128.Idx) :
    iblk5 V c 0 t (ix2 (j 0) (j 1)) = agg (((cfg5.win 6).blk t).view.emb j) := by
  obtain ⟨e00, e01, e60, e61, e10, e11, e20, e21, e30, e31, e40, e41, e50, e51⟩ := maps_r5 t
  show V c main_v83 (((cfg5.win 0).blk t).view.emb (ix2 (j 0) (j 1))) = _
  rw [h0]
  refine congrArg agg (funext fun a => Fin.ext ?_)
  match a with
  | ⟨0, _⟩ => show win5_0.index t (0 : Fin 2) * 5000 + 1 * (j 0).val = win5_6.index t (0 : Fin 2) * 5000 + 1 * (j 0).val; omega
  | ⟨1, _⟩ => show win5_0.index t (1 : Fin 2) * 128 + 1 * (j 1).val = win5_6.index t (1 : Fin 2) * 128 + 1 * (j 1).val; omega

/-- Row window 1's block at column `j 1` is the row's entry at the column the output's block puts `j` at. -/
theorem rd1_r5 (c : Dev nD) (p1 : ((⟨S1x128, .f32⟩ : BufTy).Contents (Elt Ideal))) (h1 : V c main_v84 = p1) (t : Fin cfg5.N) (j : S5000x128.Idx) :
    iblk5 V c 1 t (ix2 0 (j 1)) = p1 (ix2 0 ⟨((((cfg5.win 6).blk t).view.emb j) 1).val, ((((cfg5.win 6).blk t).view.emb j) 1).isLt⟩) := by
  obtain ⟨e00, e01, e60, e61, e10, e11, e20, e21, e30, e31, e40, e41, e50, e51⟩ := maps_r5 t
  show V c main_v84 (((cfg5.win 1).blk t).view.emb (ix2 0 (j 1))) = _
  rw [h1]
  refine congrArg p1 (funext fun a => Fin.ext ?_)
  match a with
  | ⟨0, _⟩ => show win5_1.index t (0 : Fin 2) * 1 + 1 * 0 = 0; omega
  | ⟨1, _⟩ => show win5_1.index t (1 : Fin 2) * 128 + 1 * (j 1).val = win5_6.index t (1 : Fin 2) * 128 + 1 * (j 1).val; omega

/-- Row window 2's block at column `j 1` is the row's entry at the column the output's block puts `j` at. -/
theorem rd2_r5 (c : Dev nD) (p2 : ((⟨S1x128, .f32⟩ : BufTy).Contents (Elt Ideal))) (h2 : V c main_v85 = p2) (t : Fin cfg5.N) (j : S5000x128.Idx) :
    iblk5 V c 2 t (ix2 0 (j 1)) = p2 (ix2 0 ⟨((((cfg5.win 6).blk t).view.emb j) 1).val, ((((cfg5.win 6).blk t).view.emb j) 1).isLt⟩) := by
  obtain ⟨e00, e01, e60, e61, e10, e11, e20, e21, e30, e31, e40, e41, e50, e51⟩ := maps_r5 t
  show V c main_v85 (((cfg5.win 2).blk t).view.emb (ix2 0 (j 1))) = _
  rw [h2]
  refine congrArg p2 (funext fun a => Fin.ext ?_)
  match a with
  | ⟨0, _⟩ => show win5_2.index t (0 : Fin 2) * 1 + 1 * 0 = 0; omega
  | ⟨1, _⟩ => show win5_2.index t (1 : Fin 2) * 128 + 1 * (j 1).val = win5_6.index t (1 : Fin 2) * 128 + 1 * (j 1).val; omega

/-- Row window 3's block at column `j 1` is the row's entry at the column the output's block puts `j` at. -/
theorem rd3_r5 (c : Dev nD) (p3 : ((⟨S1x128, .f32⟩ : BufTy).Contents (Elt Ideal))) (h3 : V c main_v86 = p3) (t : Fin cfg5.N) (j : S5000x128.Idx) :
    iblk5 V c 3 t (ix2 0 (j 1)) = p3 (ix2 0 ⟨((((cfg5.win 6).blk t).view.emb j) 1).val, ((((cfg5.win 6).blk t).view.emb j) 1).isLt⟩) := by
  obtain ⟨e00, e01, e60, e61, e10, e11, e20, e21, e30, e31, e40, e41, e50, e51⟩ := maps_r5 t
  show V c main_v86 (((cfg5.win 3).blk t).view.emb (ix2 0 (j 1))) = _
  rw [h3]
  refine congrArg p3 (funext fun a => Fin.ext ?_)
  match a with
  | ⟨0, _⟩ => show win5_3.index t (0 : Fin 2) * 1 + 1 * 0 = 0; omega
  | ⟨1, _⟩ => show win5_3.index t (1 : Fin 2) * 128 + 1 * (j 1).val = win5_6.index t (1 : Fin 2) * 128 + 1 * (j 1).val; omega

/-- Row window 4's block at column `j 1` is the row's entry at the column the output's block puts `j` at. -/
theorem rd4_r5 (c : Dev nD) (p4 : ((⟨S1x128, .f32⟩ : BufTy).Contents (Elt Ideal))) (h4 : V c main_v87 = p4) (t : Fin cfg5.N) (j : S5000x128.Idx) :
    iblk5 V c 4 t (ix2 0 (j 1)) = p4 (ix2 0 ⟨((((cfg5.win 6).blk t).view.emb j) 1).val, ((((cfg5.win 6).blk t).view.emb j) 1).isLt⟩) := by
  obtain ⟨e00, e01, e60, e61, e10, e11, e20, e21, e30, e31, e40, e41, e50, e51⟩ := maps_r5 t
  show V c main_v87 (((cfg5.win 4).blk t).view.emb (ix2 0 (j 1))) = _
  rw [h4]
  refine congrArg p4 (funext fun a => Fin.ext ?_)
  match a with
  | ⟨0, _⟩ => show win5_4.index t (0 : Fin 2) * 1 + 1 * 0 = 0; omega
  | ⟨1, _⟩ => show win5_4.index t (1 : Fin 2) * 128 + 1 * (j 1).val = win5_6.index t (1 : Fin 2) * 128 + 1 * (j 1).val; omega

/-- Row window 5's block at column `j 1` is the row's entry at the column the output's block puts `j` at. -/
theorem rd5_r5 (c : Dev nD) (p5 : ((⟨S1x128, .f32⟩ : BufTy).Contents (Elt Ideal))) (h5 : V c main_v88 = p5) (t : Fin cfg5.N) (j : S5000x128.Idx) :
    iblk5 V c 5 t (ix2 0 (j 1)) = p5 (ix2 0 ⟨((((cfg5.win 6).blk t).view.emb j) 1).val, ((((cfg5.win 6).blk t).view.emb j) 1).isLt⟩) := by
  obtain ⟨e00, e01, e60, e61, e10, e11, e20, e21, e30, e31, e40, e41, e50, e51⟩ := maps_r5 t
  show V c main_v88 (((cfg5.win 5).blk t).view.emb (ix2 0 (j 1))) = _
  rw [h5]
  refine congrArg p5 (funext fun a => Fin.ext ?_)
  match a with
  | ⟨0, _⟩ => show win5_5.index t (0 : Fin 2) * 1 + 1 * 0 = 0; omega
  | ⟨1, _⟩ => show win5_5.index t (1 : Fin 2) * 128 + 1 * (j 1).val = win5_6.index t (1 : Fin 2) * 128 + 1 * (j 1).val; omega

/-- The fused entry of equal arguments. -/
theorem bnRelu_congr_r5 {x x' b b' mu mu' var var' g g' beta beta' : EReal} (hx : x = x') (hb : b = b') (hmu : mu = mu')
    (hvar : var = var') (hg : g = g') (hbeta : beta = beta') :
    Cert.Spec.bnRelu x b mu var g beta = Cert.Spec.bnRelu x' b' mu' var' g' beta' := by
  subst hx hb hmu hvar hg hbeta; rfl

/-- What point `t` writes back is block `t` of `bnArr_r5` of the arrays as the region finds them. -/
theorem flushed_r5 (c : Dev nD) (agg : ((⟨S100000x128, .f32⟩ : BufTy).Contents (Elt Ideal))) (p1 p2 p3 p4 p5 : ((⟨S1x128, .f32⟩ : BufTy).Contents (Elt Ideal)))
    (h0 : V c main_v83 = agg) (h1 : V c main_v84 = p1) (h2 : V c main_v85 = p2) (h3 : V c main_v86 = p3)
    (h4 : V c main_v87 = p4) (h5 : V c main_v88 = p5) (t : Fin cfg5.N) :
    (dat5 V c).flushed 6 t = ((cfg5.win 6).blk t).view.read (Elt Ideal) (bnArr_r5 agg p1 p2 p3 p4 p5) := by
  show (cfg5.win 6).cut (grid5.coords t) ((dat5 V c).after 6 t) = _
  rw [after5_6]
  unfold out5_6
  rw [View.canon_unit_zero hz_r5]
  simp only [View.ld_unit_zero (S := S5000x128) hz_r5, View.ld_unit_zero (S := S1x128) hz_r5]
  funext j
  show k5_pay1 (iblk5 V c 0 t) (iblk5 V c 1 t) (iblk5 V c 5 t) (iblk5 V c 4 t) (iblk5 V c 2 t) (iblk5 V c 3 t) j
    = bnArr_r5 agg p1 p2 p3 p4 p5 (((cfg5.win 6).blk t).view.emb j)
  refine (pay_r5' (iblk5 V c 0 t) (iblk5 V c 1 t) (iblk5 V c 5 t) (iblk5 V c 4 t) (iblk5 V c 2 t) (iblk5 V c 3 t) j).trans ?_
  unfold bnArr_r5
  exact bnRelu_congr_r5 (rd0_r5 V c agg h0 t j) (rd1_r5 V c p1 h1 t j) (rd4_r5 V c p4 h4 t j) (rd5_r5 V c p5 h5 t j)
    (rd2_r5 V c p2 h2 t j) (rd3_r5 V c p3 h3 t j)

/-- An index of the output array is in point `t`'s block iff each coordinate is in the block's range on its axis. -/
theorem mem_blk_r5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v89).slice (win5_6.rect t)).set ↔ _
  rw [View.set_slice_whole, Rect.mem_set_unit]
  exact Iff.rfl

/-- Row `r` lies in the block of point `r / 5000`: the twenty blocks cover the array. -/
theorem cover_r5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  have ht : (i 0).val / 5000 < cfg5.N := by omega
  refine ⟨⟨(i 0).val / 5000, ht⟩, flush5_6 _, ?_⟩
  rw [mem_blk_r5]
  obtain ⟨e00, e01, e60, e61, -⟩ := maps_r5 ⟨(i 0).val / 5000, ht⟩
  have e60' : win5_6.index ⟨(i 0).val / 5000, ht⟩ (0 : Fin 2) = (i 0).val / 5000 := e60
  intro a
  match a with
  | ⟨0, _⟩ =>
    show win5_6.index ⟨(i 0).val / 5000, ht⟩ (0 : Fin 2) * 5000 ≤ (i 0).val ∧ (i 0).val < win5_6.index ⟨(i 0).val / 5000, ht⟩ (0 : Fin 2) * 5000 + 5000
    omega
  | ⟨1, _⟩ =>
    show win5_6.index ⟨(i 0).val / 5000, ht⟩ (1 : Fin 2) * 128 ≤ (i 1).val ∧ (i 1).val < win5_6.index ⟨(i 0).val / 5000, ht⟩ (1 : Fin 2) * 128 + 128
    omega

theorem region5_out (c : Dev nD) (agg : ((⟨S100000x128, .f32⟩ : BufTy).Contents (Elt Ideal))) (p1 p2 p3 p4 p5 : ((⟨S1x128, .f32⟩ : BufTy).Contents (Elt Ideal)))
    (h0 : V c main_v83 = agg) (h1 : V c main_v84 = p1) (h2 : V c main_v85 = p2) (h3 : V c main_v86 = p3)
    (h4 : V c main_v87 = p4) (h5 : V c main_v88 = p5) (a : Fin 100000) (b : Fin 128) :
    (dat5 V c).arrAt 6 cfg5.N (ix2 a b)
      = Cert.Spec.bnRelu (agg (ix2 a b)) (p1 (ix2 0 b)) (p4 (ix2 0 b)) (p5 (ix2 0 b)) (p2 (ix2 0 b)) (p3 (ix2 0 b)) := by
  rw [(dat5 V c).arrAt_eq_of_cover 6 (bnArr_r5 agg p1 p2 p3 p4 p5) (fun t _ => flushed_r5 V c agg p1 p2 p3 p4 p5 h0 h1 h2 h3 h4 h5 t) cover_r5]
  rfl

end Cert.KernelIdeal.Chain

end
-- ==== Proof.HostEnds.lean ====
/-
  The host stretches of the tiled program, read at the buffers later stages use. Each stretch applies the same graph
  operations as the reference (the self-looped edge list, the symmetric degree normalisation, gathering rows along the
  edges, scaling them, and summing them into their target rows; at the end the per-graph mean and the small two-layer
  head), so a buffer written by a stretch is the reference's stage of the same arguments as soon as the buffers the
  stretch reads are. Stated for any contents `W` of the buffers before the stretch.
-/
import proofs.«173683_j48155173322903_1_alg».proof.Proof.Gen.KernelIdeal.Frame
import proofs.«173683_j48155173322903_1_alg».proof.Proof.RefReadP
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem

/-! ## Before the first region: the edge list with self loops (sources, targets) and the edge weights -/

/-- After the first stretch, a buffer it wrote holds the reference's stage of the edge list. -/
theorem host0a_v3 (W : Valuation τ sig (Elt Ideal)) :
    StableHlo.after hostOps0 W (Proc.devRef .tc main_v3)
      = Cert.ReferenceIdeal.Read.val_main_v3 (F := Ideal) (W (Proc.devRef .tc main_arg1)) := by
  simp only [hostOps0]
  after_results
  generalize W (Proc.devRef .tc main_arg1) = x1
  rfl

theorem host0a_v6 (W : Valuation τ sig (Elt Ideal)) :
    StableHlo.after hostOps0 W (Proc.devRef .tc main_v6)
      = Cert.ReferenceIdeal.Read.val_main_v6 (F := Ideal) (W (Proc.devRef .tc main_arg1)) := by
  simp only [hostOps0]
  after_results
  generalize W (Proc.devRef .tc main_arg1) = x1
  rfl

set_option maxHeartbeats 2000000 in
theorem host0a_v12 (W : Valuation τ sig (Elt Ideal)) :
    StableHlo.after hostOps0 W (Proc.devRef .tc main_v12)
      = Cert.ReferenceIdeal.Read.val_main_v12 (F := Ideal) (W (Proc.devRef .tc main_arg1)) := by
  simp only [hostOps0]
  after_results
  generalize W (Proc.devRef .tc main_arg1) = x1
  rfl

set_option maxHeartbeats 2000000 in
theorem host0a_v15 (W : Valuation τ sig (Elt Ideal)) :
    StableHlo.after hostOps0 W (Proc.devRef .tc main_v15)
      = Cert.ReferenceIdeal.Read.val_main_v15 (F := Ideal) (W (Proc.devRef .tc main_arg1)) := by
  simp only [hostOps0]
  after_results
  generalize W (Proc.devRef .tc main_arg1) = x1
  rfl

theorem host0a_cst3 (W : Valuation τ sig (Elt Ideal)) :
    StableHlo.after hostOps0 W (Proc.devRef .tc main_cst_3) = Cert.ReferenceIdeal.Read.val_main_cst_3 (F := Ideal) := by
  simp only [hostOps0]
  after_results
  rfl

/-- The outlined selection: where the degree is positive its inverse square root, elsewhere zero. -/
theorem host0b_v16 (V : Valuation τ sig (Elt Ideal)) (x1 : ((⟨S2x600000, .i32⟩ : BufTy).Contents (Elt Ideal)))
    (h12 : V (Proc.devRef .tc main_v12) = Cert.ReferenceIdeal.Read.val_main_v12 (F := Ideal) x1)
    (h15 : V (Proc.devRef .tc main_v15) = Cert.ReferenceIdeal.Read.val_main_v15 (F := Ideal) x1)
    (hc3 : V (Proc.devRef .tc main_cst_3) = Cert.ReferenceIdeal.Read.val_main_cst_3 (F := Ideal)) :
    StableHlo.after hostOps0_1 V (Proc.devRef .tc main_v16) = Cert.ReferenceIdeal.Read.val_main_v16 (F := Ideal) x1 := by
  simp only [hostOps0_1]
  after_results
  rw [h12, h15, hc3]
  have e1 : ∀ z : (⟨S100000, .i1⟩ : BufTy).Contents (Elt Ideal), (StableHlo.TRef.of main_v12 : StableHlo.TRef sig ⟨S100000, .i1⟩).ofBuf z = z := fun z => eq_of_heq (cast_heq _ _)
  have e2 : ∀ z : (⟨S100000, .f32⟩ : BufTy).Contents (Elt Ideal), (StableHlo.TRef.of main_v15 : StableHlo.TRef sig ⟨S100000, .f32⟩).ofBuf z = z := fun z => eq_of_heq (cast_heq _ _)
  have e3 : ∀ z : (⟨S_, .f32⟩ : BufTy).Contents (Elt Ideal), (StableHlo.TRef.of main_cst_3 : StableHlo.TRef sig ⟨S_, .f32⟩).ofBuf z = z := fun z => eq_of_heq (cast_heq _ _)
  have e4 : ∀ z : (⟨S100000, .f32⟩ : BufTy).Contents (Elt Ideal), (StableHlo.TRef.of main_v16 : StableHlo.TRef sig ⟨S100000, .f32⟩).toBuf z = z := fun z => eq_of_heq (cast_heq _ _)
  have e5 : ∀ z : (⟨S_, .f32⟩ : BufTy).Contents (Elt Ideal), (StableHlo.TRef.of main_cst_3 : StableHlo.TRef sig ⟨S_, .f32⟩).toBuf z = z := fun z => eq_of_heq (cast_heq _ _)
  repeat (first | rw [e1] | rw [e2] | rw [e3] | rw [e4] | rw [e5])
  unfold Cert.ReferenceIdeal.Read.val_main_v16 Cert.ReferenceIdeal.Read.val_main_call0_v1 Cert.ReferenceIdeal.Read.val_main_call0_v0
  generalize Cert.ReferenceIdeal.Read.val_main_v12 (F := Ideal) x1 = A
  generalize Cert.ReferenceIdeal.Read.val_main_v15 (F := Ideal) x1 = B
  rfl

/-- The outlined selection writes neither the sources nor the targets. -/
theorem host0b_keep (V : Valuation τ sig (Elt Ideal)) :
    StableHlo.after hostOps0_1 V (Proc.devRef .tc main_v3) = V (Proc.devRef .tc main_v3)
    ∧ StableHlo.after hostOps0_1 V (Proc.devRef .tc main_v6) = V (Proc.devRef .tc main_v6) := by
  constructor <;> (simp only [hostOps0_1]; after_results)

/-- The third stretch keeps the sources and the targets. -/
theorem host0c_keep (V : Valuation τ sig (Elt Ideal)) :
    StableHlo.after hostOps0_2 V (Proc.devRef .tc main_v3) = V (Proc.devRef .tc main_v3)
    ∧ StableHlo.after hostOps0_2 V (Proc.devRef .tc main_v6) = V (Proc.devRef .tc main_v6) := by
  constructor <;> (simp only [hostOps0_2]; after_results)

set_option maxHeartbeats 4000000 in
/-- The third stretch: the normalisation gathered at both ends of every edge, multiplied, as a column. -/
theorem host0c_v32 (V : Valuation τ sig (Elt Ideal)) (x1 : ((⟨S2x600000, .i32⟩ : BufTy).Contents (Elt Ideal)))
    (h3 : V (Proc.devRef .tc main_v3) = Cert.ReferenceIdeal.Read.val_main_v3 (F := Ideal) x1)
    (h6 : V (Proc.devRef .tc main_v6) = Cert.ReferenceIdeal.Read.val_main_v6 (F := Ideal) x1)
    (h16 : V (Proc.devRef .tc main_v16) = Cert.ReferenceIdeal.Read.val_main_v16 (F := Ideal) x1) :
    StableHlo.after hostOps0_2 V (Proc.devRef .tc main_v32) = Cert.ReferenceIdeal.Read.val_main_v32 (F := Ideal) x1 := by
  simp only [hostOps0_2]
  after_results
  rw [h3, h6, h16]
  rfl

theorem host0_src (W : Valuation τ sig (Elt Ideal)) :
    StableHlo.after hostOps0_2 (StableHlo.after hostOps0_1 (StableHlo.after hostOps0 W)) (Proc.devRef .tc main_v3)
      = Cert.ReferenceIdeal.Read.val_main_v3 (F := Ideal) (W (Proc.devRef .tc main_arg1)) := by
  rw [(host0c_keep _).1, (host0b_keep _).1, host0a_v3]

theorem host0_dst (W : Valuation τ sig (Elt Ideal)) :
    StableHlo.after hostOps0_2 (StableHlo.after hostOps0_1 (StableHlo.after hostOps0 W)) (Proc.devRef .tc main_v6)
      = Cert.ReferenceIdeal.Read.val_main_v6 (F := Ideal) (W (Proc.devRef .tc main_arg1)) := by
  rw [(host0c_keep _).2, (host0b_keep _).2, host0a_v6]

theorem host0_norm (W : Valuation τ sig (Elt Ideal)) :
    StableHlo.after hostOps0_2 (StableHlo.after hostOps0_1 (StableHlo.after hostOps0 W)) (Proc.devRef .tc main_v32)
      = Cert.ReferenceIdeal.Read.val_main_v32 (F := Ideal) (W (Proc.devRef .tc main_arg1)) := by
  refine host0c_v32 _ _ ?_ ?_ ?_
  · rw [(host0b_keep _).1, host0a_v3]
  · rw [(host0b_keep _).2, host0a_v6]
  · exact host0b_v16 _ _ (host0a_v12 W) (host0a_v15 W) (host0a_cst3 W)

/-! ## After the last region: the per-graph mean and the two-layer head -/

set_option maxHeartbeats 4000000 in
/-- The first stretch after the last region: the per-graph sums over the batch vector, divided by the larger of the
    count and one, times the first head matrix, plus its bias row. -/
theorem host6a_v104 (W : Valuation τ sig (Elt Ideal)) (x0 : ((⟨S100000x64, .f32⟩ : BufTy).Contents (Elt Ideal))) (x1 : ((⟨S2x600000, .i32⟩ : BufTy).Contents (Elt Ideal))) (x2 : ((⟨S100000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal))) (x16 x17 x18 x19 x20 : ((⟨S128, .f32⟩ : BufTy).Contents (Elt Ideal))) (x21 : ((⟨S128x64, .f32⟩ : BufTy).Contents (Elt Ideal))) (x22 : ((⟨S64, .f32⟩ : BufTy).Contents (Elt Ideal))) (x23 : ((⟨S64x1, .f32⟩ : BufTy).Contents (Elt Ideal))) (x24 : ((⟨S1, .f32⟩ : BufTy).Contents (Elt Ideal)))
    (h89 : W (Proc.devRef .tc main_v89) = Cert.ReferenceIdeal.Read.val_main_v129 (F := Ideal) x0 x1 x3 x4 x5 x6 x7 x8 x9 x10 x11 x12 x13 x14 x15 x16 x17 x18 x19 x20)
    (h2 : W (Proc.devRef .tc main_arg2) = x2) (h21 : W (Proc.devRef .tc main_arg21) = x21) (h22 : W (Proc.devRef .tc main_arg22) = x22) :
    StableHlo.after hostOps6 W (Proc.devRef .tc main_v104) = Cert.ReferenceIdeal.Read.val_main_v144 (F := Ideal) x0 x1 x2 x3 x4 x5 x6 x7 x8 x9 x10 x11 x12 x13 x14 x15 x16 x17 x18 x19 x20 x21 x22 := by
  simp only [hostOps6]
  after_results
  rw [h89, h2, h21, h22]
  unfold Cert.ReferenceIdeal.Read.val_main_v144 Cert.ReferenceIdeal.Read.val_main_v141 Cert.ReferenceIdeal.Read.val_main_v140 Cert.ReferenceIdeal.Read.val_main_v132
  generalize Cert.ReferenceIdeal.Read.val_main_v129 (F := Ideal) x0 x1 x3 x4 x5 x6 x7 x8 x9 x10 x11 x12 x13 x14 x15 x16 x17 x18 x19 x20 = y
  rfl

/-- Neither that stretch nor the outlined rectifier writes the second head matrix or its bias. -/
theorem host6a_keep (W : Valuation τ sig (Elt Ideal)) :
    StableHlo.after hostOps6_1 (StableHlo.after hostOps6 W) (Proc.devRef .tc main_arg23) = W (Proc.devRef .tc main_arg23)
    ∧ StableHlo.after hostOps6_1 (StableHlo.after hostOps6 W) (Proc.devRef .tc main_arg24) = W (Proc.devRef .tc main_arg24) := by
  constructor <;> (simp only [hostOps6_1]; after_results)

/-- The outlined rectifier: the larger of its argument and zero. -/
theorem host6b_v105 (V : Valuation τ sig (Elt Ideal)) (x0 : ((⟨S100000x64, .f32⟩ : BufTy).Contents (Elt Ideal))) (x1 : ((⟨S2x600000, .i32⟩ : BufTy).Contents (Elt Ideal))) (x2 : ((⟨S100000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal))) (x16 x17 x18 x19 x20 : ((⟨S128, .f32⟩ : BufTy).Contents (Elt Ideal))) (x21 : ((⟨S128x64, .f32⟩ : BufTy).Contents (Elt Ideal))) (x22 : ((⟨S64, .f32⟩ : BufTy).Contents (Elt Ideal))) (x23 : ((⟨S64x1, .f32⟩ : BufTy).Contents (Elt Ideal))) (x24 : ((⟨S1, .f32⟩ : BufTy).Contents (Elt Ideal)))
    (h104 : V (Proc.devRef .tc main_v104) = Cert.ReferenceIdeal.Read.val_main_v144 (F := Ideal) x0 x1 x2 x3 x4 x5 x6 x7 x8 x9 x10 x11 x12 x13 x14 x15 x16 x17 x18 x19 x20 x21 x22) :
    StableHlo.after hostOps6_1 V (Proc.devRef .tc main_v105) = Cert.ReferenceIdeal.Read.val_main_v145 (F := Ideal) x0 x1 x2 x3 x4 x5 x6 x7 x8 x9 x10 x11 x12 x13 x14 x15 x16 x17 x18 x19 x20 x21 x22 := by
  simp only [hostOps6_1]
  after_results
  rw [h104]
  have e1 : ∀ z : (⟨S512x64, .f32⟩ : BufTy).Contents (Elt Ideal), (StableHlo.TRef.of main_v104 : StableHlo.TRef sig ⟨S512x64, .f32⟩).ofBuf z = z := fun z => eq_of_heq (cast_heq _ _)
  have e2 : ∀ z : (⟨S512x64, .f32⟩ : BufTy).Contents (Elt Ideal), (StableHlo.TRef.of main_v105 : StableHlo.TRef sig ⟨S512x64, .f32⟩).toBuf z = z := fun z => eq_of_heq (cast_heq _ _)
  have e3 : ∀ z : (⟨S_, .f32⟩ : BufTy).Contents (Elt Ideal), (StableHlo.TRef.of main_call1_cst : StableHlo.TRef sig ⟨S_, .f32⟩).ofBuf z = z := fun z => eq_of_heq (cast_heq _ _)
  have e4 : ∀ z : (⟨S_, .f32⟩ : BufTy).Contents (Elt Ideal), (StableHlo.TRef.of main_call1_cst : StableHlo.TRef sig ⟨S_, .f32⟩).toBuf z = z := fun z => eq_of_heq (cast_heq _ _)
  repeat (first | rw [e1] | rw [e2] | rw [e3] | rw [e4])
  unfold Cert.ReferenceIdeal.Read.val_main_v145 Cert.ReferenceIdeal.Read.val_main_call4_v0 Cert.ReferenceIdeal.Read.val_main_call4_cst
  generalize Cert.ReferenceIdeal.Read.val_main_v144 (F := Ideal) x0 x1 x2 x3 x4 x5 x6 x7 x8 x9 x10 x11 x12 x13 x14 x15 x16 x17 x18 x19 x20 x21 x22 = y
  rfl

set_option maxHeartbeats 4000000 in
/-- The last stretch: times the second head matrix, plus its bias, through the logistic function. -/
theorem host6c_v115 (V : Valuation τ sig (Elt Ideal)) (x0 : ((⟨S100000x64, .f32⟩ : BufTy).Contents (Elt Ideal))) (x1 : ((⟨S2x600000, .i32⟩ : BufTy).Contents (Elt Ideal))) (x2 : ((⟨S100000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal))) (x16 x17 x18 x19 x20 : ((⟨S128, .f32⟩ : BufTy).Contents (Elt Ideal))) (x21 : ((⟨S128x64, .f32⟩ : BufTy).Contents (Elt Ideal))) (x22 : ((⟨S64, .f32⟩ : BufTy).Contents (Elt Ideal))) (x23 : ((⟨S64x1, .f32⟩ : BufTy).Contents (Elt Ideal))) (x24 : ((⟨S1, .f32⟩ : BufTy).Contents (Elt Ideal)))
    (h105 : V (Proc.devRef .tc main_v105) = Cert.ReferenceIdeal.Read.val_main_v145 (F := Ideal) x0 x1 x2 x3 x4 x5 x6 x7 x8 x9 x10 x11 x12 x13 x14 x15 x16 x17 x18 x19 x20 x21 x22)
    (h23 : V (Proc.devRef .tc main_arg23) = x23) (h24 : V (Proc.devRef .tc main_arg24) = x24) :
    StableHlo.after hostOps6_2 V (Proc.devRef .tc main_v115) = Cert.ReferenceIdeal.Read.val_main_v155 (F := Ideal) x0 x1 x2 x3 x4 x5 x6 x7 x8 x9 x10 x11 x12 x13 x14 x15 x16 x17 x18 x19 x20 x21 x22 x23 x24 := by
  simp only [hostOps6_2]
  after_results
  rw [h105, h23, h24]
  unfold Cert.ReferenceIdeal.Read.val_main_v155 Cert.ReferenceIdeal.Read.val_main_v153 Cert.ReferenceIdeal.Read.val_main_v151 Cert.ReferenceIdeal.Read.val_main_v150 Cert.ReferenceIdeal.Read.val_main_v149 Cert.ReferenceIdeal.Read.val_main_v146
  generalize Cert.ReferenceIdeal.Read.val_main_v145 (F := Ideal) x0 x1 x2 x3 x4 x5 x6 x7 x8 x9 x10 x11 x12 x13 x14 x15 x16 x17 x18 x19 x20 x21 x22 = y
  rfl

theorem host6_out (W : Valuation τ sig (Elt Ideal)) (x0 : ((⟨S100000x64, .f32⟩ : BufTy).Contents (Elt Ideal))) (x1 : ((⟨S2x600000, .i32⟩ : BufTy).Contents (Elt Ideal))) (x2 : ((⟨S100000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal))) (x16 x17 x18 x19 x20 : ((⟨S128, .f32⟩ : BufTy).Contents (Elt Ideal))) (x21 : ((⟨S128x64, .f32⟩ : BufTy).Contents (Elt Ideal))) (x22 : ((⟨S64, .f32⟩ : BufTy).Contents (Elt Ideal))) (x23 : ((⟨S64x1, .f32⟩ : BufTy).Contents (Elt Ideal))) (x24 : ((⟨S1, .f32⟩ : BufTy).Contents (Elt Ideal)))
    (h89 : W (Proc.devRef .tc main_v89) = Cert.ReferenceIdeal.Read.val_main_v129 (F := Ideal) x0 x1 x3 x4 x5 x6 x7 x8 x9 x10 x11 x12 x13 x14 x15 x16 x17 x18 x19 x20)
    (h2 : W (Proc.devRef .tc main_arg2) = x2) (h21 : W (Proc.devRef .tc main_arg21) = x21) (h22 : W (Proc.devRef .tc main_arg22) = x22)
    (h23 : W (Proc.devRef .tc main_arg23) = x23) (h24 : W (Proc.devRef .tc main_arg24) = x24) :
    StableHlo.after hostOps6_2 (StableHlo.after hostOps6_1 (StableHlo.after hostOps6 W)) (Proc.devRef .tc main_v115)
      = Cert.ReferenceIdeal.Read.val_main_v155 (F := Ideal) x0 x1 x2 x3 x4 x5 x6 x7 x8 x9 x10 x11 x12 x13 x14 x15 x16 x17 x18 x19 x20 x21 x22 x23 x24 := by
  refine host6c_v115 _ x0 x1 x2 x3 x4 x5 x6 x7 x8 x9 x10 x11 x12 x13 x14 x15 x16 x17 x18 x19 x20 x21 x22 x23 x24 ?_ ?_ ?_
  · exact host6b_v105 _ x0 x1 x2 x3 x4 x5 x6 x7 x8 x9 x10 x11 x12 x13 x14 x15 x16 x17 x18 x19 x20 x21 x22 x23 x24 (host6a_v104 W x0 x1 x2 x3 x4 x5 x6 x7 x8 x9 x10 x11 x12 x13 x14 x15 x16 x17 x18 x19 x20 x21 x22 x23 x24 h89 h2 h21 h22)
  · rw [(host6a_keep W).1, h23]
  · rw [(host6a_keep W).2, h24]

end Cert.KernelIdeal.Chain

end
-- ==== Proof.HostMid.lean ====
/-
  The host stretches of the tiled program, read at the buffers later stages use. Each stretch applies the same graph
  operations as the reference (the self-looped edge list, the symmetric degree normalisation, gathering rows along the
  edges, scaling them, and summing them into their target rows; at the end the per-graph mean and the small two-layer
  head), so a buffer written by a stretch is the reference's stage of the same arguments as soon as the buffers the
  stretch reads are. Stated for any contents `W` of the buffers before the stretch.
-/
import proofs.«173683_j48155173322903_1_alg».proof.Proof.Gen.KernelIdeal.Frame
import proofs.«173683_j48155173322903_1_alg».proof.Proof.RefReadP
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem

/-! ## A vector written as a one-row matrix

A reshape keeps the row-major position; the position of `(0, b)` in `[1, 128]` is `b`, the position of `(b)` in `[128]`. -/

theorem row_of_vec (y : ((⟨S128, .f32⟩ : BufTy).Contents (Elt Ideal))) (b : Fin 128) :
    shapeCast S1x128 y shapeCasts_S128_S1x128 (ix2 0 b) = y (ix1 b) :=
  shapeCast_a_1a_apply y shapeCasts_S128_S1x128 0 b

/-! ## After the first product: the first aggregation, and the first block's parameters as rows

An aggregation is the same tree of operations on both sides: the source rows wrapped into range, the product's rows
gathered along them, scaled by the edge weights, and summed into the target rows of a zero matrix. Once the four buffers
the stretch reads are replaced by the reference's stages, the two sides are the same term. -/

theorem hostOps1_agg (W : Valuation τ sig (Elt Ideal)) (x0 : ((⟨S100000x64, .f32⟩ : BufTy).Contents (Elt Ideal))) (x1 : ((⟨S2x600000, .i32⟩ : BufTy).Contents (Elt Ideal))) (x3 : ((⟨S64x128, .f32⟩ : BufTy).Contents (Elt Ideal)))
    (h3 : W (Proc.devRef .tc main_v3) = Cert.ReferenceIdeal.Read.val_main_v3 (F := Ideal) x1) (h6 : W (Proc.devRef .tc main_v6) = Cert.ReferenceIdeal.Read.val_main_v6 (F := Ideal) x1)
    (h32 : W (Proc.devRef .tc main_v32) = Cert.ReferenceIdeal.Read.val_main_v32 (F := Ideal) x1)
    (h33 : W (Proc.devRef .tc main_v33) = Cert.ReferenceIdeal.Read.val_main_v33 (F := Ideal) x0 x3) :
    StableHlo.after hostOps1 W (Proc.devRef .tc main_v45) = Cert.ReferenceIdeal.Read.val_main_v45 (F := Ideal) x0 x1 x3 := by
  show StableHlo.after hostOps1 W _ = _
  unfold hostOps1
  after_results_simp
  rw [h3, h6, h32, h33]
  rfl

theorem hostOps1_v46 (W : Valuation τ sig (Elt Ideal)) (b : Fin 128) :
    StableHlo.after hostOps1 W (Proc.devRef .tc main_v46) (ix2 0 b) = W (Proc.devRef .tc main_arg4) (ix1 b) := by
  show StableHlo.after hostOps1 W _ _ = _
  unfold hostOps1
  after_results_simp
  exact row_of_vec _ b

theorem hostOps1_v47 (W : Valuation τ sig (Elt Ideal)) (b : Fin 128) :
    StableHlo.after hostOps1 W (Proc.devRef .tc main_v47) (ix2 0 b) = W (Proc.devRef .tc main_arg5) (ix1 b) := by
  show StableHlo.after hostOps1 W _ _ = _
  unfold hostOps1
  after_results_simp
  exact row_of_vec _ b

theorem hostOps1_v48 (W : Valuation τ sig (Elt Ideal)) (b : Fin 128) :
    StableHlo.after hostOps1 W (Proc.devRef .tc main_v48) (ix2 0 b) = W (Proc.devRef .tc main_arg6) (ix1 b) := by
  show StableHlo.after hostOps1 W _ _ = _
  unfold hostOps1
  after_results_simp
  exact row_of_vec _ b

theorem hostOps1_v49 (W : Valuation τ sig (Elt Ideal)) (b : Fin 128) :
    StableHlo.after hostOps1 W (Proc.devRef .tc main_v49) (ix2 0 b) = W (Proc.devRef .tc main_arg7) (ix1 b) := by
  show StableHlo.after hostOps1 W _ _ = _
  unfold hostOps1
  after_results_simp
  exact row_of_vec _ b

theorem hostOps1_v50 (W : Valuation τ sig (Elt Ideal)) (b : Fin 128) :
    StableHlo.after hostOps1 W (Proc.devRef .tc main_v50) (ix2 0 b) = W (Proc.devRef .tc main_arg8) (ix1 b) := by
  show StableHlo.after hostOps1 W _ _ = _
  unfold hostOps1
  after_results_simp
  exact row_of_vec _ b

/-! ## After the second product: the second aggregation, and the middle block's parameters -/

theorem hostOps3_agg (W : Valuation τ sig (Elt Ideal)) (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal)))
    (h3 : W (Proc.devRef .tc main_v3) = Cert.ReferenceIdeal.Read.val_main_v3 (F := Ideal) x1) (h6 : W (Proc.devRef .tc main_v6) = Cert.ReferenceIdeal.Read.val_main_v6 (F := Ideal) x1)
    (h32 : W (Proc.devRef .tc main_v32) = Cert.ReferenceIdeal.Read.val_main_v32 (F := Ideal) x1)
    (h52 : W (Proc.devRef .tc main_v52) = Cert.ReferenceIdeal.Read.val_main_v65 (F := Ideal) x0 x1 x3 x4 x5 x6 x7 x8 x9) :
    StableHlo.after hostOps3 W (Proc.devRef .tc main_v64) = Cert.ReferenceIdeal.Read.val_main_v77 (F := Ideal) x0 x1 x3 x4 x5 x6 x7 x8 x9 := by
  show StableHlo.after hostOps3 W _ = _
  unfold hostOps3
  after_results_simp
  rw [h3, h6, h32, h52]
  rfl

theorem hostOps3_v65 (W : Valuation τ sig (Elt Ideal)) (b : Fin 128) :
    StableHlo.after hostOps3 W (Proc.devRef .tc main_v65) (ix2 0 b) = W (Proc.devRef .tc main_arg10) (ix1 b) := by
  show StableHlo.after hostOps3 W _ _ = _
  unfold hostOps3
  after_results_simp
  exact row_of_vec _ b

theorem hostOps3_v66 (W : Valuation τ sig (Elt Ideal)) (b : Fin 128) :
    StableHlo.after hostOps3 W (Proc.devRef .tc main_v66) (ix2 0 b) = W (Proc.devRef .tc main_arg11) (ix1 b) := by
  show StableHlo.after hostOps3 W _ _ = _
  unfold hostOps3
  after_results_simp
  exact row_of_vec _ b

theorem hostOps3_v67 (W : Valuation τ sig (Elt Ideal)) (b : Fin 128) :
    StableHlo.after hostOps3 W (Proc.devRef .tc main_v67) (ix2 0 b) = W (Proc.devRef .tc main_arg12) (ix1 b) := by
  show StableHlo.after hostOps3 W _ _ = _
  unfold hostOps3
  after_results_simp
  exact row_of_vec _ b

theorem hostOps3_v68 (W : Valuation τ sig (Elt Ideal)) (b : Fin 128) :
    StableHlo.after hostOps3 W (Proc.devRef .tc main_v68) (ix2 0 b) = W (Proc.devRef .tc main_arg13) (ix1 b) := by
  show StableHlo.after hostOps3 W _ _ = _
  unfold hostOps3
  after_results_simp
  exact row_of_vec _ b

theorem hostOps3_v69 (W : Valuation τ sig (Elt Ideal)) (b : Fin 128) :
    StableHlo.after hostOps3 W (Proc.devRef .tc main_v69) (ix2 0 b) = W (Proc.devRef .tc main_arg14) (ix1 b) := by
  show StableHlo.after hostOps3 W _ _ = _
  unfold hostOps3
  after_results_simp
  exact row_of_vec _ b

/-! ## After the third product: the third aggregation, and the last block's parameters -/

theorem hostOps5_agg (W : Valuation τ sig (Elt Ideal)) (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal)))
    (h3 : W (Proc.devRef .tc main_v3) = Cert.ReferenceIdeal.Read.val_main_v3 (F := Ideal) x1) (h6 : W (Proc.devRef .tc main_v6) = Cert.ReferenceIdeal.Read.val_main_v6 (F := Ideal) x1)
    (h32 : W (Proc.devRef .tc main_v32) = Cert.ReferenceIdeal.Read.val_main_v32 (F := Ideal) x1)
    (h71 : W (Proc.devRef .tc main_v71) = Cert.ReferenceIdeal.Read.val_main_v98 (F := Ideal) x0 x1 x3 x4 x5 x6 x7 x8 x9 x10 x11 x12 x13 x14 x15) :
    StableHlo.after hostOps5 W (Proc.devRef .tc main_v83) = Cert.ReferenceIdeal.Read.val_main_v110 (F := Ideal) x0 x1 x3 x4 x5 x6 x7 x8 x9 x10 x11 x12 x13 x14 x15 := by
  show StableHlo.after hostOps5 W _ = _
  unfold hostOps5
  after_results_simp
  rw [h3, h6, h32, h71]
  rfl

theorem hostOps5_v84 (W : Valuation τ sig (Elt Ideal)) (b : Fin 128) :
    StableHlo.after hostOps5 W (Proc.devRef .tc main_v84) (ix2 0 b) = W (Proc.devRef .tc main_arg16) (ix1 b) := by
  show StableHlo.after hostOps5 W _ _ = _
  unfold hostOps5
  after_results_simp
  exact row_of_vec _ b

theorem hostOps5_v85 (W : Valuation τ sig (Elt Ideal)) (b : Fin 128) :
    StableHlo.after hostOps5 W (Proc.devRef .tc main_v85) (ix2 0 b) = W (Proc.devRef .tc main_arg17) (ix1 b) := by
  show StableHlo.after hostOps5 W _ _ = _
  unfold hostOps5
  after_results_simp
  exact row_of_vec _ b

theorem hostOps5_v86 (W : Valuation τ sig (Elt Ideal)) (b : Fin 128) :
    StableHlo.after hostOps5 W (Proc.devRef .tc main_v86) (ix2 0 b) = W (Proc.devRef .tc main_arg18) (ix1 b) := by
  show StableHlo.after hostOps5 W _ _ = _
  unfold hostOps5
  after_results_simp
  exact row_of_vec _ b

theorem hostOps5_v87 (W : Valuation τ sig (Elt Ideal)) (b : Fin 128) :
    StableHlo.after hostOps5 W (Proc.devRef .tc main_v87) (ix2 0 b) = W (Proc.devRef .tc main_arg19) (ix1 b) := by
  show StableHlo.after hostOps5 W _ _ = _
  unfold hostOps5
  after_results_simp
  exact row_of_vec _ b

theorem hostOps5_v88 (W : Valuation τ sig (Elt Ideal)) (b : Fin 128) :
    StableHlo.after hostOps5 W (Proc.devRef .tc main_v88) (ix2 0 b) = W (Proc.devRef .tc main_arg20) (ix1 b) := by
  show StableHlo.after hostOps5 W _ _ = _
  unfold hostOps5
  after_results_simp
  exact row_of_vec _ b

end Cert.KernelIdeal.Chain

end
-- ==== Proof.RefRead.lean ====
/-
  The reference's stages that correspond to the six tiled regions, read at one entry (a, b):
  each product of a feature matrix with a weight matrix is the sum over the contracted coordinate, and each
  bias / normalisation / cut-off block is the closed expression `Cert.Spec.bnRelu` of the aggregated entry and the
  five per-column parameters (plus, in the middle block, the block's own input).
-/
import proofs.«173683_j48155173322903_1_alg».proof.Proof.RefReadP
import proofs.«173683_j48155173322903_1_alg».proof.Proof.Spec
import proofs.«173683_j48155173322903_1_alg».proof.Proof.LibPlainDot
import Idealize.ShloMosaic.Lib.ValueIdx
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx

/- The three products. Each program record is the plain one (contract the left operand's second axis with the right
   operand's first, no batch axes), so the entry (a, b) of the product is the sum over the contracted coordinate. -/

theorem v33_at (x0 : ((⟨S100000x64, .f32⟩ : BufTy).Contents (Elt Ideal))) (x3 : ((⟨S64x128, .f32⟩ : BufTy).Contents (Elt Ideal))) (a : Fin 100000) (b : Fin 128) :
    val_main_v33 (F := Ideal) x0 x3 (ix2 a b) = ∑ k : Fin 64, x0 (ix2 a k) * x3 (ix2 k b) := by
  unfold val_main_v33
  exact Cert.LibPlainDot.dotGeneral_apply _ rfl none _ _ a b

/- The three blocks. Each elementwise stage reads its operands at the same entry; each per-column parameter is first
   laid out as a one-row matrix and then repeated down the rows, so at the entry (a, b) it is the parameter's entry b;
   the two constants (the small number under the root, and the zero of the cut-off) are the same at every entry. What is
   left is `Cert.Spec.bnRelu` of the aggregated entry and the five parameter entries, by unfolding. -/

theorem v64_at (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (a : Fin 100000) (b : Fin 128) :
    val_main_v64 (F := Ideal) x0 x1 x3 x4 x5 x6 x7 x8 (ix2 a b)
      = Cert.Spec.bnRelu (val_main_v45 (F := Ideal) x0 x1 x3 (ix2 a b)) (x4 (ix1 b)) (x7 (ix1 b)) (x8 (ix1 b)) (x5 (ix1 b)) (x6 (ix1 b)) := by
  have e47 : idx_main_v46 (idx_main_v47 (ix2 a b)) = ix1 b :=
    funext fun d => Fin.ext (by match d with | ⟨0, _⟩ => rfl)
  have e50 : idx_main_v49 (idx_main_v50 (ix2 a b)) = ix1 b :=
    funext fun d => Fin.ext (by match d with | ⟨0, _⟩ => rfl)
  have e56 : idx_main_v55 (idx_main_v56 (ix2 a b)) = ix1 b :=
    funext fun d => Fin.ext (by match d with | ⟨0, _⟩ => rfl)
  have e59 : idx_main_v58 (idx_main_v59 (ix2 a b)) = ix1 b :=
    funext fun d => Fin.ext (by match d with | ⟨0, _⟩ => rfl)
  have e62 : idx_main_v61 (idx_main_v62 (ix2 a b)) = ix1 b :=
    funext fun d => Fin.ext (by match d with | ⟨0, _⟩ => rfl)
  rw [val_main_v64_apply, val_main_v63_apply, val_main_v60_apply, val_main_v57_apply, val_main_v51_apply, val_main_v48_apply,
    val_main_v47_apply, val_main_v46_apply, val_main_v50_apply, val_main_v49_apply, val_main_v56_apply, val_main_v55_apply, val_main_v54_apply, val_main_v53_apply, val_main_v52_apply, val_main_cst_10_apply,
    val_main_v59_apply, val_main_v58_apply, val_main_v62_apply, val_main_v61_apply, val_main_call1_v0_apply, val_main_call1_cst_apply,
    e47, e50, e56, e59, e62]
  generalize val_main_v45 (F := Ideal) x0 x1 x3 (ix2 a b) = y
  rfl

theorem v65_at (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (a : Fin 100000) (b : Fin 128) :
    val_main_v65 (F := Ideal) x0 x1 x3 x4 x5 x6 x7 x8 x9 (ix2 a b) = ∑ k : Fin 128, val_main_v64 (F := Ideal) x0 x1 x3 x4 x5 x6 x7 x8 (ix2 a k) * x9 (ix2 k b) := by
  unfold val_main_v65
  exact Cert.LibPlainDot.dotGeneral_apply _ rfl none _ _ a b

theorem v97_at (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (a : Fin 100000) (b : Fin 128) :
    val_main_v97 (F := Ideal) x0 x1 x3 x4 x5 x6 x7 x8 x9 x10 x11 x12 x13 x14 (ix2 a b)
      = Cert.Spec.bnRelu (val_main_v77 (F := Ideal) x0 x1 x3 x4 x5 x6 x7 x8 x9 (ix2 a b)) (x10 (ix1 b)) (x13 (ix1 b)) (x14 (ix1 b)) (x11 (ix1 b)) (x12 (ix1 b))
        + val_main_v64 (F := Ideal) x0 x1 x3 x4 x5 x6 x7 x8 (ix2 a b) := by
  have e79 : idx_main_v78 (idx_main_v79 (ix2 a b)) = ix1 b :=
    funext fun d => Fin.ext (by match d with | ⟨0, _⟩ => rfl)
  have e82 : idx_main_v81 (idx_main_v82 (ix2 a b)) = ix1 b :=
    funext fun d => Fin.ext (by match d with | ⟨0, _⟩ => rfl)
  have e88 : idx_main_v87 (idx_main_v88 (ix2 a b)) = ix1 b :=
    funext fun d => Fin.ext (by match d with | ⟨0, _⟩ => rfl)
  have e91 : idx_main_v90 (idx_main_v91 (ix2 a b)) = ix1 b :=
    funext fun d => Fin.ext (by match d with | ⟨0, _⟩ => rfl)
  have e94 : idx_main_v93 (idx_main_v94 (ix2 a b)) = ix1 b :=
    funext fun d => Fin.ext (by match d with | ⟨0, _⟩ => rfl)
  rw [val_main_v97_apply, val_main_v96_apply, val_main_v95_apply, val_main_v92_apply, val_main_v89_apply, val_main_v83_apply, val_main_v80_apply,
    val_main_v79_apply, val_main_v78_apply, val_main_v82_apply, val_main_v81_apply, val_main_v88_apply, val_main_v87_apply, val_main_v86_apply, val_main_v85_apply, val_main_v84_apply, val_main_cst_14_apply,
    val_main_v91_apply, val_main_v90_apply, val_main_v94_apply, val_main_v93_apply, val_main_call2_v0_apply, val_main_call2_cst_apply,
    e79, e82, e88, e91, e94]
  generalize val_main_v77 (F := Ideal) x0 x1 x3 x4 x5 x6 x7 x8 x9 (ix2 a b) = y
  generalize val_main_v64 (F := Ideal) x0 x1 x3 x4 x5 x6 x7 x8 (ix2 a b) = r
  rfl

theorem v98_at (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal))) (a : Fin 100000) (b : Fin 128) :
    val_main_v98 (F := Ideal) x0 x1 x3 x4 x5 x6 x7 x8 x9 x10 x11 x12 x13 x14 x15 (ix2 a b) = ∑ k : Fin 128, val_main_v97 (F := Ideal) x0 x1 x3 x4 x5 x6 x7 x8 x9 x10 x11 x12 x13 x14 (ix2 a k) * x15 (ix2 k b) := by
  unfold val_main_v98
  exact Cert.LibPlainDot.dotGeneral_apply _ rfl none _ _ a b

theorem v129_at (x0 : ((⟨S100000x64, .f32⟩ : BufTy).Contents (Elt Ideal))) (x1 : ((⟨S2x600000, .i32⟩ : BufTy).Contents (Elt Ideal))) (x3 : ((⟨S64x128, .f32⟩ : BufTy).Contents (Elt Ideal))) (x4 x5 x6 x7 x8 : ((⟨S128, .f32⟩ : BufTy).Contents (Elt Ideal))) (x9 : ((⟨S128x128, .f32⟩ : BufTy).Contents (Elt Ideal))) (x10 x11 x12 x13 x14 : ((⟨S128, .f32⟩ : BufTy).Contents (Elt Ideal))) (x15 : ((⟨S128x128, .f32⟩ : BufTy).Contents (Elt Ideal))) (x16 x17 x18 x19 x20 : ((⟨S128, .f32⟩ : BufTy).Contents (Elt Ideal))) (a : Fin 100000) (b : Fin 128) :
    val_main_v129 (F := Ideal) x0 x1 x3 x4 x5 x6 x7 x8 x9 x10 x11 x12 x13 x14 x15 x16 x17 x18 x19 x20 (ix2 a b)
      = Cert.Spec.bnRelu (val_main_v110 (F := Ideal) x0 x1 x3 x4 x5 x6 x7 x8 x9 x10 x11 x12 x13 x14 x15 (ix2 a b)) (x16 (ix1 b)) (x19 (ix1 b)) (x20 (ix1 b)) (x17 (ix1 b)) (x18 (ix1 b)) := by
  have e112 : idx_main_v111 (idx_main_v112 (ix2 a b)) = ix1 b :=
    funext fun d => Fin.ext (by match d with | ⟨0, _⟩ => rfl)
  have e115 : idx_main_v114 (idx_main_v115 (ix2 a b)) = ix1 b :=
    funext fun d => Fin.ext (by match d with | ⟨0, _⟩ => rfl)
  have e121 : idx_main_v120 (idx_main_v121 (ix2 a b)) = ix1 b :=
    funext fun d => Fin.ext (by match d with | ⟨0, _⟩ => rfl)
  have e124 : idx_main_v123 (idx_main_v124 (ix2 a b)) = ix1 b :=
    funext fun d => Fin.ext (by match d with | ⟨0, _⟩ => rfl)
  have e127 : idx_main_v126 (idx_main_v127 (ix2 a b)) = ix1 b :=
    funext fun d => Fin.ext (by match d with | ⟨0, _⟩ => rfl)
  rw [val_main_v129_apply, val_main_v128_apply, val_main_v125_apply, val_main_v122_apply, val_main_v116_apply, val_main_v113_apply,
    val_main_v112_apply, val_main_v111_apply, val_main_v115_apply, val_main_v114_apply, val_main_v121_apply, val_main_v120_apply, val_main_v119_apply, val_main_v118_apply, val_main_v117_apply, val_main_cst_18_apply,
    val_main_v124_apply, val_main_v123_apply, val_main_v127_apply, val_main_v126_apply, val_main_call3_v0_apply, val_main_call3_cst_apply,
    e112, e115, e121, e124, e127]
  generalize val_main_v110 (F := Ideal) x0 x1 x3 x4 x5 x6 x7 x8 x9 x10 x11 x12 x13 x14 x15 (ix2 a b) = y
  rfl

end Cert.ReferenceIdeal.RefValue

end
-- ==== Proof.Spine.lean ====
/-
  The tiled program's result, stage by stage. The generated frame describes the buffers' contents at every boundary
  between host stretches and regions as a fold from the launch memory. Walking that fold forward, each buffer a later
  stage reads is shown to hold the reference's stage of the launch arguments: the edge list and edge weights after the
  first stretches; after each tiled product the reference's product (both are the sum over the contracted coordinate);
  after each middle stretch the reference's aggregation (the same gather, scaling and scatter-add of equal operands);
  after each fused block the reference's normalised and cut-off block (both are `Cert.Spec.bnRelu` entry by entry); and
  after the last stretches the reference's result. A buffer that a stretch or a region does not write keeps its
  contents, which carries the edge list, the weights, the first block's output and the arguments to where they are read.
-/
import proofs.«173683_j48155173322903_1_alg».proof.Proof.Gen.KernelIdeal.Frame
import proofs.«173683_j48155173322903_1_alg».proof.Proof.RefReadP
import proofs.«173683_j48155173322903_1_alg».proof.Proof.RegionMM0
import proofs.«173683_j48155173322903_1_alg».proof.Proof.RegionMM2
import proofs.«173683_j48155173322903_1_alg».proof.Proof.RegionMM4
import proofs.«173683_j48155173322903_1_alg».proof.Proof.RegionBN1
import proofs.«173683_j48155173322903_1_alg».proof.Proof.RegionBN3
import proofs.«173683_j48155173322903_1_alg».proof.Proof.RegionBN5
import proofs.«173683_j48155173322903_1_alg».proof.Proof.HostEnds
import proofs.«173683_j48155173322903_1_alg».proof.Proof.HostMid
import proofs.«173683_j48155173322903_1_alg».proof.Proof.RefRead
import Idealize.ShloMosaic.Lib.StableHlo.Run
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Cert.ReferenceIdeal.Read Cert.ReferenceIdeal.RefValue

/-- Two [n0, n1] arrays that agree at every (a, b) are equal. -/
theorem ext_ix2 {n0 n1 : Nat} {f g : (⟨2, ![n0, n1]⟩ : Shape).Idx → EReal}
    (h : ∀ (a : Fin n0) (b : Fin n1), f (ix2 a b) = g (ix2 a b)) : f = g :=
  funext fun i => by rw [eq_ix2 i]; exact h _ _

/-- Side goal "no operation of this stretch writes the buffer": one inequality of references per operation. -/
macro "nw " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The launch arguments and the reference's stages of them -/
abbrev a0 : ((⟨S100000x64, .f32⟩ : BufTy).Contents (Elt Ideal)) := m ((c : Thread nD τ).loc main_arg0)
abbrev a1 : ((⟨S2x600000, .i32⟩ : BufTy).Contents (Elt Ideal)) := m ((c : Thread nD τ).loc main_arg1)
abbrev a2 : ((⟨S100000, .i32⟩ : BufTy).Contents (Elt Ideal)) := m ((c : Thread nD τ).loc main_arg2)
abbrev a3 : ((⟨S64x128, .f32⟩ : BufTy).Contents (Elt Ideal)) := m ((c : Thread nD τ).loc main_arg3)
abbrev a4 : ((⟨S128, .f32⟩ : BufTy).Contents (Elt Ideal)) := m ((c : Thread nD τ).loc main_arg4)
abbrev a5 : ((⟨S128, .f32⟩ : BufTy).Contents (Elt Ideal)) := m ((c : Thread nD τ).loc main_arg5)
abbrev a6 : ((⟨S128, .f32⟩ : BufTy).Contents (Elt Ideal)) := m ((c : Thread nD τ).loc main_arg6)
abbrev a7 : ((⟨S128, .f32⟩ : BufTy).Contents (Elt Ideal)) := m ((c : Thread nD τ).loc main_arg7)
abbrev a8 : ((⟨S128, .f32⟩ : BufTy).Contents (Elt Ideal)) := m ((c : Thread nD τ).loc main_arg8)
abbrev a9 : ((⟨S128x128, .f32⟩ : BufTy).Contents (Elt Ideal)) := m ((c : Thread nD τ).loc main_arg9)
abbrev a10 : ((⟨S128, .f32⟩ : BufTy).Contents (Elt Ideal)) := m ((c : Thread nD τ).loc main_arg10)
abbrev a11 : ((⟨S128, .f32⟩ : BufTy).Contents (Elt Ideal)) := m ((c : Thread nD τ).loc main_arg11)
abbrev a12 : ((⟨S128, .f32⟩ : BufTy).Contents (Elt Ideal)) := m ((c : Thread nD τ).loc main_arg12)
abbrev a13 : ((⟨S128, .f32⟩ : BufTy).Contents (Elt Ideal)) := m ((c : Thread nD τ).loc main_arg13)
abbrev a14 : ((⟨S128, .f32⟩ : BufTy).Contents (Elt Ideal)) := m ((c : Thread nD τ).loc main_arg14)
abbrev a15 : ((⟨S128x128, .f32⟩ : BufTy).Contents (Elt Ideal)) := m ((c : Thread nD τ).loc main_arg15)
abbrev a16 : ((⟨S128, .f32⟩ : BufTy).Contents (Elt Ideal)) := m ((c : Thread nD τ).loc main_arg16)
abbrev a17 : ((⟨S128, .f32⟩ : BufTy).Contents (Elt Ideal)) := m ((c : Thread nD τ).loc main_arg17)
abbrev a18 : ((⟨S128, .f32⟩ : BufTy).Contents (Elt Ideal)) := m ((c : Thread nD τ).loc main_arg18)
abbrev a19 : ((⟨S128, .f32⟩ : BufTy).Contents (Elt Ideal)) := m ((c : Thread nD τ).loc main_arg19)
abbrev a20 : ((⟨S128, .f32⟩ : BufTy).Contents (Elt Ideal)) := m ((c : Thread nD τ).loc main_arg20)
abbrev a21 : ((⟨S128x64, .f32⟩ : BufTy).Contents (Elt Ideal)) := m ((c : Thread nD τ).loc main_arg21)
abbrev a22 : ((⟨S64, .f32⟩ : BufTy).Contents (Elt Ideal)) := m ((c : Thread nD τ).loc main_arg22)
abbrev a23 : ((⟨S64x1, .f32⟩ : BufTy).Contents (Elt Ideal)) := m ((c : Thread nD τ).loc main_arg23)
abbrev a24 : ((⟨S1, .f32⟩ : BufTy).Contents (Elt Ideal)) := m ((c : Thread nD τ).loc main_arg24)

abbrev s3 := val_main_v3 (F := Ideal) (a1 m c)
abbrev s6 := val_main_v6 (F := Ideal) (a1 m c)
abbrev s32 := val_main_v32 (F := Ideal) (a1 m c)
abbrev s33 := val_main_v33 (F := Ideal) (a0 m c) (a3 m c)
abbrev s45 := val_main_v45 (F := Ideal) (a0 m c) (a1 m c) (a3 m c)
abbrev s64 := val_main_v64 (F := Ideal) (a0 m c) (a1 m c) (a3 m c) (a4 m c) (a5 m c) (a6 m c) (a7 m c) (a8 m c)
abbrev s65 := val_main_v65 (F := Ideal) (a0 m c) (a1 m c) (a3 m c) (a4 m c) (a5 m c) (a6 m c) (a7 m c) (a8 m c) (a9 m c)
abbrev s77 := val_main_v77 (F := Ideal) (a0 m c) (a1 m c) (a3 m c) (a4 m c) (a5 m c) (a6 m c) (a7 m c) (a8 m c) (a9 m c)
abbrev s97 := val_main_v97 (F := Ideal) (a0 m c) (a1 m c) (a3 m c) (a4 m c) (a5 m c) (a6 m c) (a7 m c) (a8 m c) (a9 m c) (a10 m c) (a11 m c) (a12 m c) (a13 m c) (a14 m c)
abbrev s98 := val_main_v98 (F := Ideal) (a0 m c) (a1 m c) (a3 m c) (a4 m c) (a5 m c) (a6 m c) (a7 m c) (a8 m c) (a9 m c) (a10 m c) (a11 m c) (a12 m c) (a13 m c) (a14 m c) (a15 m c)
abbrev s110 := val_main_v110 (F := Ideal) (a0 m c) (a1 m c) (a3 m c) (a4 m c) (a5 m c) (a6 m c) (a7 m c) (a8 m c) (a9 m c) (a10 m c) (a11 m c) (a12 m c) (a13 m c) (a14 m c) (a15 m c)
abbrev s129 := val_main_v129 (F := Ideal) (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
abbrev s155 := val_main_v155 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c)

/-! ## Buffers that a stretch or a region leaves alone -/

/-- Through the three stretches before the first region. -/
theorem w3_of_w0 (b : Ref sig .tc)
    (h2 : ∀ op ∈ (hostOps0_2 : List (HloOp τ sig (Elt Ideal))), (Proc.devRef .tc b) ∉ op.writes)
    (h1 : ∀ op ∈ (hostOps0_1 : List (HloOp τ sig (Elt Ideal))), (Proc.devRef .tc b) ∉ op.writes)
    (h0 : ∀ op ∈ (hostOps0 : List (HloOp τ sig (Elt Ideal))), (Proc.devRef .tc b) ∉ op.writes) :
    W3 m ρ c (Proc.devRef .tc b) = m ((c : Thread nD τ).loc b) :=
  (StableHlo.after_of_forall_not_mem _ _ h2).trans
    ((StableHlo.after_of_forall_not_mem _ _ h1).trans (StableHlo.after_of_forall_not_mem _ _ h0))

theorem w5_of_w4 (b : Ref sig .tc) (h : ∀ op ∈ (hostOps1 : List (HloOp τ sig (Elt Ideal))), (Proc.devRef .tc b) ∉ op.writes) :
    W5 m ρ c (Proc.devRef .tc b) = W4 m ρ c (Proc.devRef .tc b) := StableHlo.after_of_forall_not_mem _ _ h

theorem w8_of_w7 (b : Ref sig .tc) (h : ∀ op ∈ (hostOps3 : List (HloOp τ sig (Elt Ideal))), (Proc.devRef .tc b) ∉ op.writes) :
    W8 m ρ c (Proc.devRef .tc b) = W7 m ρ c (Proc.devRef .tc b) := StableHlo.after_of_forall_not_mem _ _ h

theorem w11_of_w10 (b : Ref sig .tc) (h : ∀ op ∈ (hostOps5 : List (HloOp τ sig (Elt Ideal))), (Proc.devRef .tc b) ∉ op.writes) :
    W11 m ρ c (Proc.devRef .tc b) = W10 m ρ c (Proc.devRef .tc b) := StableHlo.after_of_forall_not_mem _ _ h

/-- Through the three stretches after the last region. -/
theorem w15_of_w12 (b : Ref sig .tc)
    (h2 : ∀ op ∈ (hostOps6_2 : List (HloOp τ sig (Elt Ideal))), (Proc.devRef .tc b) ∉ op.writes)
    (h1 : ∀ op ∈ (hostOps6_1 : List (HloOp τ sig (Elt Ideal))), (Proc.devRef .tc b) ∉ op.writes)
    (h0 : ∀ op ∈ (hostOps6 : List (HloOp τ sig (Elt Ideal))), (Proc.devRef .tc b) ∉ op.writes) :
    W15 m ρ c (Proc.devRef .tc b) = W12 m ρ c (Proc.devRef .tc b) :=
  (StableHlo.after_of_forall_not_mem _ _ h2).trans
    ((StableHlo.after_of_forall_not_mem _ _ h1).trans (StableHlo.after_of_forall_not_mem _ _ h0))

/-! ## Region 0: the first product -/

theorem w3_src : W3 m ρ c (Proc.devRef .tc main_v3) = s3 m c := host0_src (W0 m ρ c)
theorem w3_dst : W3 m ρ c (Proc.devRef .tc main_v6) = s6 m c := host0_dst (W0 m ρ c)
theorem w3_norm : W3 m ρ c (Proc.devRef .tc main_v32) = s32 m c := host0_norm (W0 m ρ c)
theorem w3_arg0 : W3 m ρ c (Proc.devRef .tc main_arg0) = a0 m c := w3_of_w0 m ρ c main_arg0 (by nw hostOps0_2) (by nw hostOps0_1) (by nw hostOps0)
theorem w3_arg3 : W3 m ρ c (Proc.devRef .tc main_arg3) = a3 m c := w3_of_w0 m ρ c main_arg3 (by nw hostOps0_2) (by nw hostOps0_1) (by nw hostOps0)

theorem r0_out : (dat0 (V3 m ρ) c).arrAt 2 cfg0.N = s33 m c :=
  ext_ix2 fun a b => (region0_out (V3 m ρ) c (a0 m c) (a3 m c) (w3_arg0 m ρ c) (w3_arg3 m ρ c) a b).trans
    (v33_at (a0 m c) (a3 m c) a b).symm

/-! ## The first aggregation and the first block -/

theorem w4_v33 : W4 m ρ c (Proc.devRef .tc main_v33) = s33 m c := (W4_arr m ρ c 2).trans (r0_out m ρ c)
theorem w4_src : W4 m ρ c (Proc.devRef .tc main_v3) = s3 m c := (W4_of_ne m ρ c main_v3 (by decide)).trans (w3_src m ρ c)
theorem w4_dst : W4 m ρ c (Proc.devRef .tc main_v6) = s6 m c := (W4_of_ne m ρ c main_v6 (by decide)).trans (w3_dst m ρ c)
theorem w4_norm : W4 m ρ c (Proc.devRef .tc main_v32) = s32 m c := (W4_of_ne m ρ c main_v32 (by decide)).trans (w3_norm m ρ c)
theorem w4_arg4 : W4 m ρ c (Proc.devRef .tc main_arg4) = a4 m c :=
  (W4_of_ne m ρ c main_arg4 (by decide)).trans (w3_of_w0 m ρ c main_arg4 (by nw hostOps0_2) (by nw hostOps0_1) (by nw hostOps0))
theorem w4_arg5 : W4 m ρ c (Proc.devRef .tc main_arg5) = a5 m c :=
  (W4_of_ne m ρ c main_arg5 (by decide)).trans (w3_of_w0 m ρ c main_arg5 (by nw hostOps0_2) (by nw hostOps0_1) (by nw hostOps0))
theorem w4_arg6 : W4 m ρ c (Proc.devRef .tc main_arg6) = a6 m c :=
  (W4_of_ne m ρ c main_arg6 (by decide)).trans (w3_of_w0 m ρ c main_arg6 (by nw hostOps0_2) (by nw hostOps0_1) (by nw hostOps0))
theorem w4_arg7 : W4 m ρ c (Proc.devRef .tc main_arg7) = a7 m c :=
  (W4_of_ne m ρ c main_arg7 (by decide)).trans (w3_of_w0 m ρ c main_arg7 (by nw hostOps0_2) (by nw hostOps0_1) (by nw hostOps0))
theorem w4_arg8 : W4 m ρ c (Proc.devRef .tc main_arg8) = a8 m c :=
  (W4_of_ne m ρ c main_arg8 (by decide)).trans (w3_of_w0 m ρ c main_arg8 (by nw hostOps0_2) (by nw hostOps0_1) (by nw hostOps0))

theorem w5_agg : V5 m ρ c main_v45 = s45 m c :=
  hostOps1_agg (W4 m ρ c) (a0 m c) (a1 m c) (a3 m c) (w4_src m ρ c) (w4_dst m ρ c) (w4_norm m ρ c) (w4_v33 m ρ c)
theorem w5_p46 (b : Fin 128) : V5 m ρ c main_v46 (ix2 0 b) = a4 m c (ix1 b) :=
  (hostOps1_v46 (W4 m ρ c) b).trans (congrFun (w4_arg4 m ρ c) (ix1 b))
theorem w5_p47 (b : Fin 128) : V5 m ρ c main_v47 (ix2 0 b) = a5 m c (ix1 b) :=
  (hostOps1_v47 (W4 m ρ c) b).trans (congrFun (w4_arg5 m ρ c) (ix1 b))
theorem w5_p48 (b : Fin 128) : V5 m ρ c main_v48 (ix2 0 b) = a6 m c (ix1 b) :=
  (hostOps1_v48 (W4 m ρ c) b).trans (congrFun (w4_arg6 m ρ c) (ix1 b))
theorem w5_p49 (b : Fin 128) : V5 m ρ c main_v49 (ix2 0 b) = a7 m c (ix1 b) :=
  (hostOps1_v49 (W4 m ρ c) b).trans (congrFun (w4_arg7 m ρ c) (ix1 b))
theorem w5_p50 (b : Fin 128) : V5 m ρ c main_v50 (ix2 0 b) = a8 m c (ix1 b) :=
  (hostOps1_v50 (W4 m ρ c) b).trans (congrFun (w4_arg8 m ρ c) (ix1 b))
theorem w5_src : W5 m ρ c (Proc.devRef .tc main_v3) = s3 m c := (w5_of_w4 m ρ c main_v3 (by nw hostOps1)).trans (w4_src m ρ c)
theorem w5_dst : W5 m ρ c (Proc.devRef .tc main_v6) = s6 m c := (w5_of_w4 m ρ c main_v6 (by nw hostOps1)).trans (w4_dst m ρ c)
theorem w5_norm : W5 m ρ c (Proc.devRef .tc main_v32) = s32 m c := (w5_of_w4 m ρ c main_v32 (by nw hostOps1)).trans (w4_norm m ρ c)

theorem r1_out : (dat1 (V5 m ρ) c).arrAt 6 cfg1.N = s64 m c :=
  ext_ix2 fun a b => by
    refine (region1_out (V5 m ρ) c (s45 m c) _ _ _ _ _ (w5_agg m ρ c) rfl rfl rfl rfl rfl a b).trans ?_
    rw [w5_p46 m ρ c b, w5_p47 m ρ c b, w5_p48 m ρ c b, w5_p49 m ρ c b, w5_p50 m ρ c b]
    exact (v64_at (a0 m c) (a1 m c) (a3 m c) (a4 m c) (a5 m c) (a6 m c) (a7 m c) (a8 m c) a b).symm

/-! ## The second product -/

theorem w6_h1 : V6 m ρ c main_v51 = s64 m c := (W6_arr m ρ c 6).trans (r1_out m ρ c)
theorem w6_arg9 : V6 m ρ c main_arg9 = a9 m c :=
  (W6_of_ne m ρ c main_arg9 (by decide)).trans ((w5_of_w4 m ρ c main_arg9 (by nw hostOps1)).trans
    ((W4_of_ne m ρ c main_arg9 (by decide)).trans (w3_of_w0 m ρ c main_arg9 (by nw hostOps0_2) (by nw hostOps0_1) (by nw hostOps0))))
theorem w6_src : W6 m ρ c (Proc.devRef .tc main_v3) = s3 m c := (W6_of_ne m ρ c main_v3 (by decide)).trans (w5_src m ρ c)
theorem w6_dst : W6 m ρ c (Proc.devRef .tc main_v6) = s6 m c := (W6_of_ne m ρ c main_v6 (by decide)).trans (w5_dst m ρ c)
theorem w6_norm : W6 m ρ c (Proc.devRef .tc main_v32) = s32 m c := (W6_of_ne m ρ c main_v32 (by decide)).trans (w5_norm m ρ c)

theorem r2_out : (dat2 (V6 m ρ) c).arrAt 2 cfg2.N = s65 m c :=
  ext_ix2 fun a b => (region2_out (V6 m ρ) c (s64 m c) (a9 m c) (w6_h1 m ρ c) (w6_arg9 m ρ c) a b).trans
    (v65_at (a0 m c) (a1 m c) (a3 m c) (a4 m c) (a5 m c) (a6 m c) (a7 m c) (a8 m c) (a9 m c) a b).symm

/-! ## The second aggregation and the middle block -/

theorem w7_v52 : W7 m ρ c (Proc.devRef .tc main_v52) = s65 m c := (W7_arr m ρ c 2).trans (r2_out m ρ c)
theorem w7_h1 : W7 m ρ c (Proc.devRef .tc main_v51) = s64 m c :=
  (W7_arr m ρ c 0).trans (((dat2 (V6 m ρ) c).arrAt_in 0 rfl _).trans ((A_eq2 (V6 m ρ) c 0).trans (w6_h1 m ρ c)))
theorem w7_src : W7 m ρ c (Proc.devRef .tc main_v3) = s3 m c := (W7_of_ne m ρ c main_v3 (by decide)).trans (w6_src m ρ c)
theorem w7_dst : W7 m ρ c (Proc.devRef .tc main_v6) = s6 m c := (W7_of_ne m ρ c main_v6 (by decide)).trans (w6_dst m ρ c)
theorem w7_norm : W7 m ρ c (Proc.devRef .tc main_v32) = s32 m c := (W7_of_ne m ρ c main_v32 (by decide)).trans (w6_norm m ρ c)
theorem w7_arg10 : W7 m ρ c (Proc.devRef .tc main_arg10) = a10 m c :=
  (W7_of_ne m ρ c main_arg10 (by decide)).trans ((W6_of_ne m ρ c main_arg10 (by decide)).trans ((w5_of_w4 m ρ c main_arg10 (by nw hostOps1)).trans
    ((W4_of_ne m ρ c main_arg10 (by decide)).trans (w3_of_w0 m ρ c main_arg10 (by nw hostOps0_2) (by nw hostOps0_1) (by nw hostOps0)))))
theorem w7_arg11 : W7 m ρ c (Proc.devRef .tc main_arg11) = a11 m c :=
  (W7_of_ne m ρ c main_arg11 (by decide)).trans ((W6_of_ne m ρ c main_arg11 (by decide)).trans ((w5_of_w4 m ρ c main_arg11 (by nw hostOps1)).trans
    ((W4_of_ne m ρ c main_arg11 (by decide)).trans (w3_of_w0 m ρ c main_arg11 (by nw hostOps0_2) (by nw hostOps0_1) (by nw hostOps0)))))
theorem w7_arg12 : W7 m ρ c (Proc.devRef .tc main_arg12) = a12 m c :=
  (W7_of_ne m ρ c main_arg12 (by decide)).trans ((W6_of_ne m ρ c main_arg12 (by decide)).trans ((w5_of_w4 m ρ c main_arg12 (by nw hostOps1)).trans
    ((W4_of_ne m ρ c main_arg12 (by decide)).trans (w3_of_w0 m ρ c main_arg12 (by nw hostOps0_2) (by nw hostOps0_1) (by nw hostOps0)))))
theorem w7_arg13 : W7 m ρ c (Proc.devRef .tc main_arg13) = a13 m c :=
  (W7_of_ne m ρ c main_arg13 (by decide)).trans ((W6_of_ne m ρ c main_arg13 (by decide)).trans ((w5_of_w4 m ρ c main_arg13 (by nw hostOps1)).trans
    ((W4_of_ne m ρ c main_arg13 (by decide)).trans (w3_of_w0 m ρ c main_arg13 (by nw hostOps0_2) (by nw hostOps0_1) (by nw hostOps0)))))
theorem w7_arg14 : W7 m ρ c (Proc.devRef .tc main_arg14) = a14 m c :=
  (W7_of_ne m ρ c main_arg14 (by decide)).trans ((W6_of_ne m ρ c main_arg14 (by decide)).trans ((w5_of_w4 m ρ c main_arg14 (by nw hostOps1)).trans
    ((W4_of_ne m ρ c main_arg14 (by decide)).trans (w3_of_w0 m ρ c main_arg14 (by nw hostOps0_2) (by nw hostOps0_1) (by nw hostOps0)))))

theorem w8_agg : V8 m ρ c main_v64 = s77 m c :=
  hostOps3_agg (W7 m ρ c) (a0 m c) (a1 m c) (a3 m c) (a4 m c) (a5 m c) (a6 m c) (a7 m c) (a8 m c) (a9 m c) (w7_src m ρ c) (w7_dst m ρ c) (w7_norm m ρ c) (w7_v52 m ρ c)
theorem w8_p65 (b : Fin 128) : V8 m ρ c main_v65 (ix2 0 b) = a10 m c (ix1 b) :=
  (hostOps3_v65 (W7 m ρ c) b).trans (congrFun (w7_arg10 m ρ c) (ix1 b))
theorem w8_p66 (b : Fin 128) : V8 m ρ c main_v66 (ix2 0 b) = a11 m c (ix1 b) :=
  (hostOps3_v66 (W7 m ρ c) b).trans (congrFun (w7_arg11 m ρ c) (ix1 b))
theorem w8_p67 (b : Fin 128) : V8 m ρ c main_v67 (ix2 0 b) = a12 m c (ix1 b) :=
  (hostOps3_v67 (W7 m ρ c) b).trans (congrFun (w7_arg12 m ρ c) (ix1 b))
theorem w8_p68 (b : Fin 128) : V8 m ρ c main_v68 (ix2 0 b) = a13 m c (ix1 b) :=
  (hostOps3_v68 (W7 m ρ c) b).trans (congrFun (w7_arg13 m ρ c) (ix1 b))
theorem w8_p69 (b : Fin 128) : V8 m ρ c main_v69 (ix2 0 b) = a14 m c (ix1 b) :=
  (hostOps3_v69 (W7 m ρ c) b).trans (congrFun (w7_arg14 m ρ c) (ix1 b))
theorem w8_h1 : V8 m ρ c main_v51 = s64 m c := (w8_of_w7 m ρ c main_v51 (by nw hostOps3)).trans (w7_h1 m ρ c)
theorem w8_src : W8 m ρ c (Proc.devRef .tc main_v3) = s3 m c := (w8_of_w7 m ρ c main_v3 (by nw hostOps3)).trans (w7_src m ρ c)
theorem w8_dst : W8 m ρ c (Proc.devRef .tc main_v6) = s6 m c := (w8_of_w7 m ρ c main_v6 (by nw hostOps3)).trans (w7_dst m ρ c)
theorem w8_norm : W8 m ρ c (Proc.devRef .tc main_v32) = s32 m c := (w8_of_w7 m ρ c main_v32 (by nw hostOps3)).trans (w7_norm m ρ c)

theorem r3_out : (dat3 (V8 m ρ) c).arrAt 7 cfg3.N = s97 m c :=
  ext_ix2 fun a b => by
    refine (region3_out (V8 m ρ) c (s77 m c) _ _ _ _ _ (s64 m c) (w8_agg m ρ c) rfl rfl rfl rfl rfl (w8_h1 m ρ c) a b).trans ?_
    rw [w8_p65 m ρ c b, w8_p66 m ρ c b, w8_p67 m ρ c b, w8_p68 m ρ c b, w8_p69 m ρ c b]
    exact (v97_at (a0 m c) (a1 m c) (a3 m c) (a4 m c) (a5 m c) (a6 m c) (a7 m c) (a8 m c) (a9 m c) (a10 m c) (a11 m c) (a12 m c) (a13 m c) (a14 m c) a b).symm

/-! ## The third product -/

theorem w9_h2 : V9 m ρ c main_v70 = s97 m c := (W9_arr m ρ c 7).trans (r3_out m ρ c)
theorem w9_src : W9 m ρ c (Proc.devRef .tc main_v3) = s3 m c := (W9_of_ne m ρ c main_v3 (by decide)).trans (w8_src m ρ c)
theorem w9_dst : W9 m ρ c (Proc.devRef .tc main_v6) = s6 m c := (W9_of_ne m ρ c main_v6 (by decide)).trans (w8_dst m ρ c)
theorem w9_norm : W9 m ρ c (Proc.devRef .tc main_v32) = s32 m c := (W9_of_ne m ρ c main_v32 (by decide)).trans (w8_norm m ρ c)
theorem w9_arg15 : V9 m ρ c main_arg15 = a15 m c :=
  ((W9_of_ne m ρ c main_arg15 (by decide)).trans ((w8_of_w7 m ρ c main_arg15 (by nw hostOps3)).trans ((W7_of_ne m ρ c main_arg15 (by decide)).trans ((W6_of_ne m ρ c main_arg15 (by decide)).trans ((w5_of_w4 m ρ c main_arg15 (by nw hostOps1)).trans ((W4_of_ne m ρ c main_arg15 (by decide)).trans (w3_of_w0 m ρ c main_arg15 (by nw hostOps0_2) (by nw hostOps0_1) (by nw hostOps0))))))))

theorem r4_out : (dat4 (V9 m ρ) c).arrAt 2 cfg4.N = s98 m c :=
  ext_ix2 fun a b => (region4_out (V9 m ρ) c (s97 m c) (a15 m c) (w9_h2 m ρ c) (w9_arg15 m ρ c) a b).trans
    (v98_at (a0 m c) (a1 m c) (a3 m c) (a4 m c) (a5 m c) (a6 m c) (a7 m c) (a8 m c) (a9 m c) (a10 m c) (a11 m c) (a12 m c) (a13 m c) (a14 m c) (a15 m c) a b).symm

/-! ## The third aggregation and the last block -/

theorem w10_v71 : W10 m ρ c (Proc.devRef .tc main_v71) = s98 m c := (W10_arr m ρ c 2).trans (r4_out m ρ c)
theorem w10_src : W10 m ρ c (Proc.devRef .tc main_v3) = s3 m c := (W10_of_ne m ρ c main_v3 (by decide)).trans (w9_src m ρ c)
theorem w10_dst : W10 m ρ c (Proc.devRef .tc main_v6) = s6 m c := (W10_of_ne m ρ c main_v6 (by decide)).trans (w9_dst m ρ c)
theorem w10_norm : W10 m ρ c (Proc.devRef .tc main_v32) = s32 m c := (W10_of_ne m ρ c main_v32 (by decide)).trans (w9_norm m ρ c)
/-- An argument read at the third aggregation or later is carried BACK from the end of the run, where the generated
    frame has it at its launch contents: nothing between writes it. -/
theorem w12_of_end (b : Ref sig .tc) (hend : W15 m ρ c (Proc.devRef .tc b) = m ((c : Thread nD τ).loc b))
    (h2 : ∀ op ∈ (hostOps6_2 : List (HloOp τ sig (Elt Ideal))), (Proc.devRef .tc b) ∉ op.writes)
    (h1 : ∀ op ∈ (hostOps6_1 : List (HloOp τ sig (Elt Ideal))), (Proc.devRef .tc b) ∉ op.writes)
    (h0 : ∀ op ∈ (hostOps6 : List (HloOp τ sig (Elt Ideal))), (Proc.devRef .tc b) ∉ op.writes) :
    W12 m ρ c (Proc.devRef .tc b) = m ((c : Thread nD τ).loc b) :=
  (w15_of_w12 m ρ c b h2 h1 h0).symm.trans hend
theorem w10_arg16 : W10 m ρ c (Proc.devRef .tc main_arg16) = a16 m c :=
  ((w11_of_w10 m ρ c main_arg16 (by nw hostOps5)).symm.trans (W12_of_ne m ρ c main_arg16 (by decide)).symm).trans
    (w12_of_end m ρ c main_arg16 (W15_main_arg16 m ρ c) (by nw hostOps6_2) (by nw hostOps6_1) (by nw hostOps6))
theorem w10_arg17 : W10 m ρ c (Proc.devRef .tc main_arg17) = a17 m c :=
  ((w11_of_w10 m ρ c main_arg17 (by nw hostOps5)).symm.trans (W12_of_ne m ρ c main_arg17 (by decide)).symm).trans
    (w12_of_end m ρ c main_arg17 (W15_main_arg17 m ρ c) (by nw hostOps6_2) (by nw hostOps6_1) (by nw hostOps6))
theorem w10_arg18 : W10 m ρ c (Proc.devRef .tc main_arg18) = a18 m c :=
  ((w11_of_w10 m ρ c main_arg18 (by nw hostOps5)).symm.trans (W12_of_ne m ρ c main_arg18 (by decide)).symm).trans
    (w12_of_end m ρ c main_arg18 (W15_main_arg18 m ρ c) (by nw hostOps6_2) (by nw hostOps6_1) (by nw hostOps6))
theorem w10_arg19 : W10 m ρ c (Proc.devRef .tc main_arg19) = a19 m c :=
  ((w11_of_w10 m ρ c main_arg19 (by nw hostOps5)).symm.trans (W12_of_ne m ρ c main_arg19 (by decide)).symm).trans
    (w12_of_end m ρ c main_arg19 (W15_main_arg19 m ρ c) (by nw hostOps6_2) (by nw hostOps6_1) (by nw hostOps6))
theorem w10_arg20 : W10 m ρ c (Proc.devRef .tc main_arg20) = a20 m c :=
  ((w11_of_w10 m ρ c main_arg20 (by nw hostOps5)).symm.trans (W12_of_ne m ρ c main_arg20 (by decide)).symm).trans
    (w12_of_end m ρ c main_arg20 (W15_main_arg20 m ρ c) (by nw hostOps6_2) (by nw hostOps6_1) (by nw hostOps6))

theorem w11_agg : V11 m ρ c main_v83 = s110 m c :=
  hostOps5_agg (W10 m ρ c) (a0 m c) (a1 m c) (a3 m c) (a4 m c) (a5 m c) (a6 m c) (a7 m c) (a8 m c) (a9 m c) (a10 m c) (a11 m c) (a12 m c) (a13 m c) (a14 m c) (a15 m c) (w10_src m ρ c) (w10_dst m ρ c) (w10_norm m ρ c) (w10_v71 m ρ c)
theorem w11_p84 (b : Fin 128) : V11 m ρ c main_v84 (ix2 0 b) = a16 m c (ix1 b) :=
  (hostOps5_v84 (W10 m ρ c) b).trans (congrFun (w10_arg16 m ρ c) (ix1 b))
theorem w11_p85 (b : Fin 128) : V11 m ρ c main_v85 (ix2 0 b) = a17 m c (ix1 b) :=
  (hostOps5_v85 (W10 m ρ c) b).trans (congrFun (w10_arg17 m ρ c) (ix1 b))
theorem w11_p86 (b : Fin 128) : V11 m ρ c main_v86 (ix2 0 b) = a18 m c (ix1 b) :=
  (hostOps5_v86 (W10 m ρ c) b).trans (congrFun (w10_arg18 m ρ c) (ix1 b))
theorem w11_p87 (b : Fin 128) : V11 m ρ c main_v87 (ix2 0 b) = a19 m c (ix1 b) :=
  (hostOps5_v87 (W10 m ρ c) b).trans (congrFun (w10_arg19 m ρ c) (ix1 b))
theorem w11_p88 (b : Fin 128) : V11 m ρ c main_v88 (ix2 0 b) = a20 m c (ix1 b) :=
  (hostOps5_v88 (W10 m ρ c) b).trans (congrFun (w10_arg20 m ρ c) (ix1 b))

theorem r5_out : (dat5 (V11 m ρ) c).arrAt 6 cfg5.N = s129 m c :=
  ext_ix2 fun a b => by
    refine (region5_out (V11 m ρ) c (s110 m c) _ _ _ _ _ (w11_agg m ρ c) rfl rfl rfl rfl rfl a b).trans ?_
    rw [w11_p84 m ρ c b, w11_p85 m ρ c b, w11_p86 m ρ c b, w11_p87 m ρ c b, w11_p88 m ρ c b]
    exact (v129_at (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) a b).symm

/-! ## The per-graph mean and the head: the result -/

theorem w12_v89 : W12 m ρ c (Proc.devRef .tc main_v89) = s129 m c := (W12_arr m ρ c 6).trans (r5_out m ρ c)
theorem w12_arg2 : W12 m ρ c (Proc.devRef .tc main_arg2) = a2 m c :=
  w12_of_end m ρ c main_arg2 (W15_main_arg2 m ρ c) (by nw hostOps6_2) (by nw hostOps6_1) (by nw hostOps6)
theorem w12_arg21 : W12 m ρ c (Proc.devRef .tc main_arg21) = a21 m c :=
  w12_of_end m ρ c main_arg21 (W15_main_arg21 m ρ c) (by nw hostOps6_2) (by nw hostOps6_1) (by nw hostOps6)
theorem w12_arg22 : W12 m ρ c (Proc.devRef .tc main_arg22) = a22 m c :=
  w12_of_end m ρ c main_arg22 (W15_main_arg22 m ρ c) (by nw hostOps6_2) (by nw hostOps6_1) (by nw hostOps6)
theorem w12_arg23 : W12 m ρ c (Proc.devRef .tc main_arg23) = a23 m c :=
  w12_of_end m ρ c main_arg23 (W15_main_arg23 m ρ c) (by nw hostOps6_2) (by nw hostOps6_1) (by nw hostOps6)
theorem w12_arg24 : W12 m ρ c (Proc.devRef .tc main_arg24) = a24 m c :=
  w12_of_end m ρ c main_arg24 (W15_main_arg24 m ρ c) (by nw hostOps6_2) (by nw hostOps6_1) (by nw hostOps6)

/-- The result buffer of the tiled program holds the reference's result stage of the launch arguments. -/
theorem w15_out : W15 m ρ c (Proc.devRef .tc main_v115) = s155 m c :=
  host6_out (W12 m ρ c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (w12_v89 m ρ c) (w12_arg2 m ρ c) (w12_arg21 m ρ c) (w12_arg22 m ρ c)
    (w12_arg23 m ρ c) (w12_arg24 m ρ c)

end Cert.KernelIdeal.Chain

end
-- ==== Proof.lean ====
/-
  The certificate's five claims, assembled.
  The three programs run and leave their argument arrays unchanged: for the tiled program and its idealization this is
  the generated frame; for the reference it is the second half of its run read back as a list of host operations.
  The idealization rewrote no operation, so that claim is trivially true.
  At the ideal instance the tiled program and the reference end with equal results: the tiled program's result buffer
  holds, after its last boundary, the reference's final stage of the launch arguments (the spine, which walks the
  boundaries forward: each tiled product is the reference's product, each aggregation the reference's aggregation, each
  fused bias, normalisation and cut-off the reference's, entry by entry); the reference's run ends at the same stage of
  its own arguments; and the two memories agree on the arguments.
-/
import proofs.«173683_j48155173322903_1_alg».proof.Defs
import proofs.«173683_j48155173322903_1_alg».proof.Proof.Gen.Kernel
import proofs.«173683_j48155173322903_1_alg».proof.Proof.Gen.Kernel.Skeleton
import proofs.«173683_j48155173322903_1_alg».proof.Proof.Gen.Kernel.Launch
import proofs.«173683_j48155173322903_1_alg».proof.Proof.Gen.Kernel.Points
import proofs.«173683_j48155173322903_1_alg».proof.Proof.Gen.Kernel.Frame
import proofs.«173683_j48155173322903_1_alg».proof.Proof.Gen.KernelIdeal
import proofs.«173683_j48155173322903_1_alg».proof.Proof.Gen.KernelIdeal.Skeleton
import proofs.«173683_j48155173322903_1_alg».proof.Proof.Gen.KernelIdeal.Launch
import proofs.«173683_j48155173322903_1_alg».proof.Proof.Gen.KernelIdeal.Points
import proofs.«173683_j48155173322903_1_alg».proof.Proof.Gen.KernelIdeal.Frame
import proofs.«173683_j48155173322903_1_alg».proof.Proof.Gen.ReferenceIdeal
import proofs.«173683_j48155173322903_1_alg».proof.Proof.Gen.Pre_finite_inputs
import proofs.«173683_j48155173322903_1_alg».proof.Proof.RunValue
import proofs.«173683_j48155173322903_1_alg».proof.Proof.RefReadP
import proofs.«173683_j48155173322903_1_alg».proof.Proof.Spine
import Idealize.ShloMosaic.Adequacy
import Idealize.ShloMosaic.Init

noncomputable section

open Idealize.ShloMosaic Idealize.ShloMosaic.TcCoe Idealize.SL.Sem

namespace Cert.Proof.Claims

/-- The tiled program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result of its own arguments is its final stage of the tiled program's arguments, when the two
    memories agree on the arguments. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Value.res_main_v155 (F := Ideal) m' c = Cert.KernelIdeal.Chain.s155 m c := by
  obtain ⟨e0, e1, e2, e3, e4, e5, e6, e7, e8, e9, e10, e11, e12, e13, e14, e15, e16, e17, e18, e19, e20, e21, e22, e23, e24⟩ := hagree
  rw [Cert.ReferenceIdeal.Read.val_main_v155_eq, e0, e1, e2, e3, e4, e5, e6, e7, e8, e9, e10, e11, e12, e13, e14, e15, e16, e17, e18, e19, e20, e21, e22, e23, e24]

/-- At the ideal instance, from memories that agree on the arguments, both programs run, end with equal results and
    leave their arguments unchanged. -/
theorem algebraic : Cert.algebraic_KernelIdeal_ReferenceIdeal := by
  intro m ρ m' ρ' _ hagree
  refine ⟨fun c => Cert.KernelIdeal.Chain.s155 m c, ?_, ?_⟩
  · exact (θ_run Cert.KernelIdeal.defs _ _).mono
      (fun r h c => ⟨(h c).1.trans (Cert.KernelIdeal.Chain.w15_out m ρ c), (h c).2⟩)
      (Cert.KernelIdeal.Gen.run_value (F := Ideal) m ρ)
  · exact (θ_run Cert.ReferenceIdeal.defs _ _).mono
      (fun r h c => ⟨(h c).1.trans (ref_result m m' c (hagree c)), (h c).2⟩)
      (Cert.ReferenceIdeal.Value.run (F := Ideal) m' ρ')

end Cert.Proof.Claims

namespace Cert.Proof

open Cert.Proof.Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
